-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 1024, 512]⟩ ⟨3, ![4, 32768, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 1024, 512]⟩ ⟨3, ![4, 32768, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x1024x512 : Shape := ⟨3, ![4, 1024, 512]⟩
abbrev S4x512 : Shape := ⟨2, ![4, 512]⟩
abbrev S_ : Shape := ⟨0, ![]⟩

class Facts : Prop where
  bcast_S_S4x1024x512 : S_.BroadcastsInDim S4x1024x512 (![] : Fin 0 → Fin S4x1024x512.rank)
  reducesTo_S4x1024x512_S_d0_1_2 : S4x1024x512.ReducesTo [0, 1, 2] S_
  h_S_ : 0 < S_.numel
  bcast_S_S4x512 : S_.BroadcastsInDim S4x512 (![] : Fin 0 → Fin S4x512.rank)
  reducesTo_S4x512_S_d0_1 : S4x512.ReducesTo [0, 1] S_

variable [Facts]

def fn {F : FTy → Type} [FloatOps F] (main_arg0 : FVec F S4x1024x512 .f32) (main_arg1 : FVec F S4x512 .f32) : IVec S_ 1 :=
  let main_v0 : FVec F S4x1024x512 .f32 := Host.absf main_arg0
  let main_cst : FVec F S_ .f32 := constant S_ .f32 0x7F800000#32
  let main_v1 : FVec F S4x1024x512 .f32 := broadcastInDim S4x1024x512 ![] bcast_S_S4x1024x512 main_cst
  let main_v2 : IVec S4x1024x512 1 := cmpf .olt main_v0 main_v1
  let main_c : IVec S_ 1 := constantI S_ 1 1#1
  let main_v3 : IVec S_ 1 := (fun x v => Host.reduce IntOp.andi x v reducesTo_S4x1024x512_S_d0_1_2 h_S_) main_v2 main_c
  let main_v4 : FVec F S4x512 .f32 := Host.absf main_arg1
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  main_v8
-- ==== Pre_finite_inputs_ReferenceIdeal.lean ====
abbrev S4x32768x512 : Shape := ⟨3, ![4, 32768, 512]⟩
abbrev S4x512 : Shape := ⟨2, ![4, 512]⟩
abbrev S_ : Shape := ⟨0, ![]⟩

class Facts : Prop where
  bcast_S_S4x32768x512 : S_.BroadcastsInDim S4x32768x512 (![] : Fin 0 → Fin S4x32768x512.rank)
  reducesTo_S4x32768x512_S_d0_1_2 : S4x32768x512.ReducesTo [0, 1, 2] S_
  h_S_ : 0 < S_.numel
  bcast_S_S4x512 : S_.BroadcastsInDim S4x512 (![] : Fin 0 → Fin S4x512.rank)
  reducesTo_S4x512_S_d0_1 : S4x512.ReducesTo [0, 1] S_

variable [Facts]

def fn {F : FTy → Type} [FloatOps F] (main_arg0 : FVec F S4x32768x512 .f32) (main_arg1 : FVec F S4x512 .f32) : IVec S_ 1 :=
  let main_v0 : FVec F S4x32768x512 .f32 := Host.absf main_arg0
  let main_cst : FVec F S_ .f32 := constant S_ .f32 0x7F800000#32
  let main_v1 : FVec F S4x32768x512 .f32 := broadcastInDim S4x32768x512 ![] bcast_S_S4x32768x512 main_cst
  let main_v2 : IVec S4x32768x512 1 := cmpf .olt main_v0 main_v1
  let main_c : IVec S_ 1 := constantI S_ 1 1#1
  let main_v3 : IVec S_ 1 := (fun x v => Host.reduce IntOp.andi x v reducesTo_S4x32768x512_S_d0_1_2 h_S_) main_v2 main_c
  let main_v4 : FVec F S4x512 .f32 := Host.absf main_arg1
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  main_v8
-- ==== Kernel.lean ====
abbrev S4x1024x512 : Shape := ⟨3, ![4, 1024, 512]⟩
abbrev S4x512 : Shape := ⟨2, ![4, 512]⟩
abbrev S4x3x512 : Shape := ⟨3, ![4, 3, 512]⟩
abbrev S_ : Shape := ⟨0, ![]⟩
abbrev S4x1021x512 : Shape := ⟨3, ![4, 1021, 512]⟩
abbrev S1x512 : Shape := ⟨2, ![1, 512]⟩
abbrev S512 : Shape := ⟨1, ![512]⟩
abbrev S1x1x512 : Shape := ⟨3, ![1, 1, 512]⟩
abbrev S4x6x512 : Shape := ⟨3, ![4, 6, 512]⟩

abbrev nBuf : Space → Nat
  | .hbm => 3
  | .vmem => 5
  | .smem => 0
  | _ => 0

abbrev bufTy : (tb : Table) → Fin (tcTables nBuf tb) → BufTy
  | .hbm, ⟨0, _⟩ => ⟨S4x1024x512, .f32⟩
  | .hbm, ⟨1, _⟩ => ⟨S4x512, .f32⟩
  | .hbm, ⟨2, _⟩ => ⟨S4x1024x512, .f32⟩
  | .local _ .vmem, ⟨0, _⟩ => ⟨S4x1024x512, .f32⟩
  | .local _ .vmem, ⟨1, _⟩ => ⟨S4x512, .f32⟩
  | .local _ .vmem, ⟨2, _⟩ => ⟨S4x1024x512, .f32⟩
  | .local _ .vmem, ⟨3, _⟩ => ⟨S4x3x512, .f32⟩
  | .local _ .vmem, ⟨4, _⟩ => ⟨S4x3x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14 : BitVec 32 := 1#32
  let v18 : BitVec 32 := Scalar.muli v7 c1_i32_14
  let v19 : BitVec 32 := Scalar.addi c0_i32_15 v18
  v19.toNat
abbrev stage0_0 : Fin 1 → Memref sig .tc .vmem S4x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  hamt_2 : (2#32 : BitVec 32).msb = false
  inb_S4x1024x512_S4x3x512_0_1021_0 : ∀ a, (![0, 1021, 0] : Fin 3 → Nat) a + S4x3x512.size a ≤ S4x1024x512.size a
  h_S4x3x512 : 0 < S4x3x512.numel
  shapeCasts_S4x3x512_S4x3x512 : S4x3x512.ShapeCasts S4x3x512
  inb_S4x3x512_S4x3x512_0_0_0 : ∀ a, (![0, 0, 0] : Fin 3 → Nat) a + S4x3x512.size a ≤ S4x3x512.size a
  inb_S4x1024x512_S4x1024x512_0_0_0 : ∀ a, (![0, 0, 0] : Fin 3 → Nat) a + S4x1024x512.size a ≤ S4x1024x512.size a
  h_S4x1024x512 : 0 < S4x1024x512.numel
  shapeCasts_S4x1024x512_S4x1024x512 : S4x1024x512.ShapeCasts S4x1024x512
  bitsLt_bf16_f32 : FTy.bits .bf16 < FTy.bits .f32
  inb_S4x512_S4x512_0_0 : ∀ a, (![0, 0] : Fin 2 → Nat) a + S4x512.size a ≤ S4x512.size a
  h_S4x512 : 0 < S4x512.numel
  shapeCasts_S4x512_S4x512 : S4x512.ShapeCasts S4x512
  slices_S4x1024x512_o0_0_0_S4x1021x512 : S4x1024x512.Slices ![0, 0, 0] S4x1021x512
  slices_S4x512_o0_0_S1x512 : S4x512.Slices ![0, 0] S1x512
  shapeCasts_S1x512_S512 : S1x512.ShapeCasts S512
  shapeCasts_S512_S1x1x512 : S512.ShapeCasts S1x1x512
  broadcasts_S1x1x512_S4x1021x512 : S1x1x512.Broadcasts S4x1021x512
  slices_S4x1024x512_o0_1_0_S4x1021x512 : S4x1024x512.Slices ![0, 1, 0] S4x1021x512
  slices_S4x512_o1_0_S1x512 : S4x512.Slices ![1, 0] S1x512
  slices_S4x1024x512_o0_2_0_S4x1021x512 : S4x1024x512.Slices ![0, 2, 0] S4x1021x512
  slices_S4x512_o2_0_S1x512 : S4x512.Slices ![2, 0] S1x512
  slices_S4x1024x512_o0_3_0_S4x1021x512 : S4x1024x512.Slices ![0, 3, 0] S4x1021x512
  slices_S4x512_o3_0_S1x512 : S4x512.Slices ![3, 0] S1x512
  inb_S4x1024x512_S4x1021x512_0_3_0 : ∀ a, (![0, 3, 0] : Fin 3 → Nat) a + S4x1021x512.size a ≤ S4x1024x512.size a
  h_S4x1021x512 : 0 < S4x1021x512.numel
  slices_S4x1024x512_o0_0_0_S4x3x512 : S4x1024x512.Slices ![0, 0, 0] S4x3x512
  concatenates_S4x3x512_S4x3x512_S4x6x512_d1 : Shape.Concatenates [S4x3x512, S4x3x512] S4x6x512 1
  slices_S4x6x512_o0_0_0_S4x3x512 : S4x6x512.Slices ![0, 0, 0] S4x3x512
  broadcasts_S1x1x512_S4x3x512 : S1x1x512.Broadcasts S4x3x512
  slices_S4x6x512_o0_1_0_S4x3x512 : S4x6x512.Slices ![0, 1, 0] S4x3x512
  slices_S4x6x512_o0_2_0_S4x3x512 : S4x6x512.Slices ![0, 2, 0] S4x3x512
  slices_S4x6x512_o0_3_0_S4x3x512 : S4x6x512.Slices ![0, 3, 0] S4x3x512
  inb_S4x1024x512_S4x3x512_0_0_0 : ∀ a, (![0, 0, 0] : Fin 3 → Nat) a + S4x3x512.size a ≤ S4x1024x512.size a
  hcc0_scratch2 : 3 + S_.numel ≤ 5
  hcc0_scratch3 : 4 + S_.numel ≤ 5
  k0_dev1_lt : ∀ d0 : Dev nD, (k0_dev1 d0) < nD
  k0_dev2_lt : ∀ d0 : Dev nD, (k0_dev2 d0) < nD
  k0_dev3_lt : ∀ d0 : Dev nD, (k0_dev3 d0) < nD
  hstage0_0 : ∀ j, (stage0_0 j).IsWhole
  hstage0_1 : ∀ j, (stage0_1 j).IsWhole
  hstage0_2 : ∀ j, (stage0_2 j).IsWhole

variable [Facts₀]

abbrev cc0_scratch2 : DmaSems sig S_ := SemArray.consecutive 3 S_ hcc0_scratch2
abbrev cc0_scratch3 : DmaSems sig S_ := SemArray.consecutive 4 S_ hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32768x512 : Shape := ⟨3, ![4, 32768, 512]⟩
abbrev S4x512 : Shape := ⟨2, ![4, 512]⟩
abbrev S_ : Shape := ⟨0, ![]⟩
abbrev S4x3x512 : Shape := ⟨3, ![4, 3, 512]⟩
abbrev S4x32771x512 : Shape := ⟨3, ![4, 32771, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x32768x512, .f32⟩
  | .hbm, ⟨1, _⟩ => ⟨S4x512, .f32⟩
  | .hbm, ⟨2, _⟩ => ⟨S_, .f32⟩
  | .hbm, ⟨3, _⟩ => ⟨S4x3x512, .f32⟩
  | .hbm, ⟨4, _⟩ => ⟨S4x32771x512, .f32⟩
  | .hbm, ⟨5, _⟩ => ⟨S_, .f32⟩
  | .hbm, ⟨6, _⟩ => ⟨S4x32768x512, .f32⟩
  | .hbm, ⟨7, _⟩ => ⟨S4x32768x512, .f32⟩
  | .hbm, ⟨8, _⟩ => ⟨S1x512, .f32⟩
  | .hbm, ⟨9, _⟩ => ⟨S512, .f32⟩
  | .hbm, ⟨10, _⟩ => ⟨S1x1x512, .f32⟩
  | .hbm, ⟨11, _⟩ => ⟨S4x32768x512, .f32⟩
  | .hbm, ⟨12, _⟩ => ⟨S4x32768x512, .f32⟩
  | .hbm, ⟨13, _⟩ => ⟨S4x32768x512, .f32⟩
  | .hbm, ⟨14, _⟩ => ⟨S4x32768x512, .f32⟩
  | .hbm, ⟨15, _⟩ => ⟨S1x512, .f32⟩
  | .hbm, ⟨16, _⟩ => ⟨S512, .f32⟩
  | .hbm, ⟨17, _⟩ => ⟨S1x1x512, .f32⟩
  | .hbm, ⟨18, _⟩ => ⟨S4x32768x512, .f32⟩
  | .hbm, ⟨19, _⟩ => ⟨S4x32768x512, .f32⟩
  | .hbm, ⟨20, _⟩ => ⟨S4x32768x512, .f32⟩
  | .hbm, ⟨21, _⟩ => ⟨S4x32768x512, .f32⟩
  | .hbm, ⟨22, _⟩ => ⟨S1x512, .f32⟩
  | .hbm, ⟨23, _⟩ => ⟨S512, .f32⟩
  | .hbm, ⟨24, _⟩ => ⟨S1x1x512, .f32⟩
  | .hbm, ⟨25, _⟩ => ⟨S4x32768x512, .f32⟩
  | .hbm, ⟨26, _⟩ => ⟨S4x32768x512, .f32⟩
  | .hbm, ⟨27, _⟩ => ⟨S4x32768x512, .f32⟩
  | .hbm, ⟨28, _⟩ => ⟨S4x32768x512, .f32⟩
  | .hbm, ⟨29, _⟩ => ⟨S1x512, .f32⟩
  | .hbm, ⟨30, _⟩ => ⟨S512, .f32⟩
  | .hbm, ⟨31, _⟩ => ⟨S1x1x512, .f32⟩
  | .hbm, ⟨32, _⟩ => ⟨S4x32768x512, .f32⟩
  | .hbm, ⟨33, _⟩ => ⟨S4x32768x512, .f32⟩
  | .hbm, ⟨34, _⟩ => ⟨S4x32768x512, .f32⟩
  | .hbm, ⟨35, _⟩ => ⟨S4x32768x512, .f32⟩
  | .hbm, ⟨36, _⟩ => ⟨S4x32768x512, .f32⟩
  | .hbm, ⟨37, _⟩ => ⟨S_, .f32⟩
  | .hbm, ⟨38, _⟩ => ⟨S4x32768x512, .f32⟩
  | .hbm, ⟨39, _⟩ => ⟨S4x32768x512, .f32⟩
  | .hbm, ⟨40, _⟩ => ⟨S4x32768x512, .f32⟩
  | _, _ => ⟨S4x32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]

class Facts₀ : Prop where
  bcast_S_S4x3x512 : S_.BroadcastsInDim S4x3x512 (![] : Fin 0 → Fin S4x3x512.rank)
  concatenates_S4x3x512_S4x32768x512_S4x32771x512_d1 : Shape.Concatenates [S4x3x512, S4x32768x512] S4x32771x512 1
  bcast_S_S4x32768x512 : S_.BroadcastsInDim S4x32768x512 (![] : Fin 0 → Fin S4x32768x512.rank)
  slices_S4x32771x512_S4x32768x512_0_0_0 : S4x32771x512.Slices ![0, 0, 0] S4x32768x512
  slices_S4x512_S1x512_0_0 : S4x512.Slices ![0, 0] S1x512
  shapeCasts_S1x512_S512 : S1x512.ShapeCasts S512
  bcast_S512_S1x1x512_2 : S512.BroadcastsInDim S1x1x512 (![2] : Fin 1 → Fin S1x1x512.rank)
  bcast_S1x1x512_S4x32768x512_0_1_2 : S1x1x512.BroadcastsInDim S4x32768x512 (![0, 1, 2] : Fin 3 → Fin S4x32768x512.rank)
  slices_S4x32771x512_S4x32768x512_0_1_0 : S4x32771x512.Slices ![0, 1, 0] S4x32768x512
  slices_S4x512_S1x512_1_0 : S4x512.Slices ![1, 0] S1x512
  slices_S4x32771x512_S4x32768x512_0_2_0 : S4x32771x512.Slices ![0, 2, 0] S4x32768x512
  slices_S4x512_S1x512_2_0 : S4x512.Slices ![2, 0] S1x512
  slices_S4x32771x512_S4x32768x512_0_3_0 : S4x32771x512.Slices ![0, 3, 0] S4x32768x512
  slices_S4x512_S1x512_3_0 : S4x512.Slices ![3, 0] S1x512

variable [Facts₀]

class Facts : Prop extends Facts₀ where

variable [Facts]
-- ==== Proof.KernelProto.lean ====
import proofs.«900792_g7700000000000793_dist_gconv1d_seqshard_i_b4_s1024_c512_v7x_i32_f32_1_alg».proof.Proof.Gen.Kernel
import proofs.«900792_g7700000000000793_dist_gconv1d_seqshard_i_b4_s1024_c512_v7x_i32_f32_1_alg».proof.Proof.Gen.Kernel.Skeleton
import proofs.«900792_g7700000000000793_dist_gconv1d_seqshard_i_b4_s1024_c512_v7x_i32_f32_1_alg».proof.Proof.Gen.Kernel.Launch
import Idealize.ShloMosaic.Lib.Pipeline.Launch
import Idealize.ShloMosaic.Lib.Pipeline.Kit
import Idealize.ShloMosaic.Lib.Tactic

/-!
# The halo exchange of the sequence-sharded causal convolution: ring, cells, contents and schedule

Thirty-two devices on a ring each hold 1024 consecutive sequence positions of `x`. A four-tap causal
convolution at position `n` reads positions `n-3 … n`, so the first three positions of a device's block need
the last three positions of the block before it (device 0 needs zeros). Each device therefore

* tells both ring neighbours it has entered (one unit on each neighbour's entry semaphore) and waits for two units
  on its own,
* copies its last three positions into the next device's landing buffer,
* computes positions `3 … 1023` from its own block,
* waits for the landing from the device before it (device 0 then overwrites what landed with zeros),
* computes positions `0 … 2` from what landed and its own first three positions,
* waits until its own copy has left.

This module names the ring, the semaphore cells, what every buffer holds at each stage and the one-round
schedule of the cells: who pays each unit and what its landing hands the cell's owner.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two resource algebras side by side: the staging pipeline's (one duty a round) and the ring's (two) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring of thirty-two devices -/

def nxt (c : Dev nD) : Dev nD := ⟨(c.val + 1) % 32, Nat.mod_lt _ (by decide)⟩
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- The three device ids the body computes: the first entry signal goes to the device before, the second to the
    device after, and the copy to the device after. -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)

def ring : Dev nD ≃ Dev nD := ⟨nxt, prv, prv_nxt, nxt_prv⟩

/-! ## Buffers and cells -/

/-- The staged block of `x`, the staged taps, the staged result block, the landing buffer and the outgoing buffer. -/
abbrev xM : Memref sig .tc .vmem S4x1024x512 .f32 := Memref.whole cc0_stg0_0
abbrev kM : Memref sig .tc .vmem S4x512 .f32 := Memref.whole cc0_stg1_0
abbrev oM : Memref sig .tc .vmem S4x1024x512 .f32 := Memref.whole cc0_stg2_0
abbrev hM : Memref sig .tc .vmem S4x3x512 .f32 := Memref.whole cc0_scratch0
abbrev sM : Memref sig .tc .vmem S4x3x512 .f32 := Memref.whole cc0_scratch1

/-- The entry semaphore (one per device, not scoped to the call) and the two copy semaphores. -/
abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one copy of three positions. -/
abbrev N : ℕ := (hM : Memref sig .tc .vmem S4x3x512 .f32).view.dmaCredit
theorem N_pos : 0 < N := View.dmaCredit_pos _ (by decide)

/-! ## What the buffers hold -/

/-- The rectangles the body reads and writes: the last three positions of the block, positions `3 … 1023` and
    positions `0 … 2` of the result. -/
abbrev rTail : Rect S4x1024x512 := Rect.unit (s := S4x1024x512) ![0, 1021, 0] S4x3x512.size inb_S4x1024x512_S4x3x512_0_1021_0
abbrev rHi : Rect S4x1024x512 := Rect.unit (s := S4x1024x512) ![0, 3, 0] S4x1021x512.size inb_S4x1024x512_S4x1021x512_0_3_0
abbrev rLo : Rect S4x1024x512 := Rect.unit (s := S4x1024x512) ![0, 0, 0] S4x3x512.size inb_S4x1024x512_S4x3x512_0_0_0
abbrev rX : Rect S4x1024x512 := Rect.unit (s := S4x1024x512) ![0, 0, 0] S4x1024x512.size inb_S4x1024x512_S4x1024x512_0_0_0
abbrev rK : Rect S4x512 := Rect.unit (s := S4x512) ![0, 0] S4x512.size inb_S4x512_S4x512_0_0
abbrev rH : Rect S4x3x512 := Rect.unit (s := S4x3x512) ![0, 0, 0] S4x3x512.size inb_S4x3x512_S4x3x512_0_0_0

/-- Device `c`'s block of `x` and its copy of the taps, as staged. -/
def xstg (c : Dev nD) : (cc0_stg0_0 : Ref sig .tc).ty.Contents (Elt F) :=
  (win0_0.blk (0 : Fin 1)).view.read (Elt F) (m ((c : Thread nD τ).loc main_arg0))
def kstg (c : Dev nD) : (cc0_stg1_0 : Ref sig .tc).ty.Contents (Elt F) :=
  (win0_1.blk (0 : Fin 1)).view.read (Elt F) (m ((c : Thread nD τ).loc main_arg1))

/-- The last three positions of a block. -/
def tailOf (x : (cc0_stg0_0 : Ref sig .tc).ty.Contents (Elt F)) : Vec F S4x3x512 .f32 :=
  (xM : Memref sig .tc .vmem S4x1024x512 .f32).view.readAt (Elt F) rTail.toLoadRect x

/-- What a device puts in its outgoing buffer: the last three positions of its block. -/
def sendC (x : (cc0_stg0_0 : Ref sig .tc).ty.Contents (Elt F)) : (cc0_scratch1 : Ref sig .tc).ty.Contents (Elt F) :=
  k0_pay2 (tailOf x)

/-- What lands on device `c`: the outgoing buffer of the device before it. -/
def landed (c : Dev nD) : (cc0_scratch0 : Ref sig .tc).ty.Contents (Elt F) := sendC (xstg m (prv c))

/-- What the landing buffer holds when the first three positions are computed: zeros on device 0 (nothing comes
    before position 0 of the sequence), elsewhere what landed. -/
def haloC (c : Dev nD) : (cc0_scratch0 : Ref sig .tc).ty.Contents (Elt F) :=
  if c.val = 0 then k0_pay6 (F := F) else landed m c

/-- Positions `3 … 1023` of the result, from the block and the taps alone. -/
def outHi (x : (cc0_stg0_0 : Ref sig .tc).ty.Contents (Elt F)) (k : (cc0_stg1_0 : Ref sig .tc).ty.Contents (Elt F)) :
    FVec F S4x1021x512 .f32 := k0_pay5 (k0_pay3 x) (k0_pay4 k)

/-- Positions `0 … 2` of the result, from the block, the taps and the three positions before the block. -/
def outLo (x : (cc0_stg0_0 : Ref sig .tc).ty.Contents (Elt F)) (k : (cc0_stg1_0 : Ref sig .tc).ty.Contents (Elt F))
    (h : (cc0_scratch0 : Ref sig .tc).ty.Contents (Elt F)) : FVec F S4x3x512 .f32 :=
  k0_pay1 (k0_pay4 k) (k0_pay7 (k0_pay3 x) h) (k0_pay8 (k0_pay3 x) (k0_pay4 k) h) (k0_pay9 (k0_pay3 x) h)

/-- The two stores into the result's staging buffer, the later one last. -/
def glue (o : (cc0_stg2_0 : Ref sig .tc).ty.Contents (Elt F)) (pHi : FVec F S4x1021x512 .f32) (pLo : FVec F S4x3x512 .f32) :
    (cc0_stg2_0 : Ref sig .tc).ty.Contents (Elt F) :=
  ((oM : Memref sig .tc .vmem S4x1024x512 .f32).access rLo : View sig .tc _ _ _).write (Elt F)
    (((oM : Memref sig .tc .vmem S4x1024x512 .f32).access rHi : View sig .tc _ _ _).write (Elt F) o pHi Finset.univ) pLo Finset.univ

/-- The result block of device `c`. The two stores cover the buffer, so what it held before does not matter:
    the block itself stands in for it. -/
def outAt (c : Dev nD) : (cc0_stg2_0 : Ref sig .tc).ty.Contents (Elt F) :=
  glue (xstg m c) (outHi (xstg m c) (kstg m c)) (outLo (xstg m c) (kstg m c) (haloC m c))

/-! ## Points-to facts of the two exchange buffers -/

def hPts (c : Dev nD) (f : Buf (Elt F) ((hM : Memref sig .tc .vmem S4x3x512 .f32).view.loc (c : Thread nD τ))) : sProp 𝕄 :=
  (hM : Memref sig .tc .vmem S4x3x512 .f32).view.loc (c : Thread nD τ) ↦[(hM : Memref sig .tc .vmem S4x3x512 .f32).view.set]{fullShare} f
def sPts (c : Dev nD) (f : Buf (Elt F) ((sM : Memref sig .tc .vmem S4x3x512 .f32).view.loc (c : Thread nD τ))) : sProp 𝕄 :=
  (sM : Memref sig .tc .vmem S4x3x512 .f32).view.loc (c : Thread nD τ) ↦[(sM : Memref sig .tc .vmem S4x3x512 .f32).view.set]{fullShare} f

omit [FloatOps F] in
instance hPts_storable (c : Dev nD) (f) : BI.Storable (upEmb : UEmb _ 𝕄) (hPts (F := F) c f) := by unfold hPts; infer_instance
omit [FloatOps F] in
instance sPts_storable (c : Dev nD) (f) : BI.Storable (upEmb : UEmb _ 𝕄) (sPts (F := F) c f) := by unfold sPts; infer_instance

omit [FloatOps F] in
theorem h_set : (hM : Memref sig .tc .vmem S4x3x512 .f32).view.set = Finset.univ := View.set_whole _
omit [FloatOps F] in
theorem s_set : (sM : Memref sig .tc .vmem S4x3x512 .f32).view.set = Finset.univ := View.set_whole _
omit [FloatOps F] in
theorem hPts_eq (c : Dev nD) (f : Buf (Elt F) ((c : Thread nD τ).loc cc0_scratch0)) :
    hPts c f = (((c : Thread nD τ).loc cc0_scratch0) ↦{fullShare} f : sProp 𝕄) := by unfold hPts; rw [h_set]
omit [FloatOps F] in
theorem sPts_eq (c : Dev nD) (f : Buf (Elt F) ((c : Thread nD τ).loc cc0_scratch1)) :
    sPts c f = (((c : Thread nD τ).loc cc0_scratch1) ↦{fullShare} f : sProp 𝕄) := by unfold sPts; rw [s_set]

omit [FloatOps F] in
/-- A whole-buffer copy leaves the destination holding the source's contents. -/
theorem landed_eq (c : Dev nD) (fd : Buf (Elt F) ((hM : Memref sig .tc .vmem S4x3x512 .f32).view.loc (c : Thread nD τ)))
    (fs : (cc0_scratch1 : Ref sig .tc).ty.Contents (Elt F)) :
    (hM : Memref sig .tc .vmem S4x3x512 .f32).view.write (Elt F) fd ((sM : Memref sig .tc .vmem S4x3x512 .f32).view.read (Elt F) fs) Finset.univ = fs := by
  show (View.whole cc0_scratch0).write (Elt F) fd ((View.whole cc0_scratch1).read (Elt F) fs) Finset.univ = fs
  rw [View.read_whole]
  exact View.write_whole_univ _ _ _

/-! ## The schedule: one round

A device's entry cell has two duties of one unit each: `true`, paid by the device after it, which hands over its
own landing buffer and the fact that its receive cell stands at round 0 (what a copy into it needs); `false`, paid
by the device before it, which hands over nothing. The send cell's one duty returns the outgoing buffer; the
receive cell's one duty hands over the landing buffer holding the previous device's last three positions. -/

def barPay (c : Dev nD) : sProp 𝕄 := iprop((∃ f, hPts (nxt c) f) ∗ reached ER (recvCell (nxt c)) 0)
def recvPay (c : Dev nD) : sProp 𝕄 := hPts c (landed m c)
def sendPay (c : Dev nD) : sProp 𝕄 := sPts c (sendC (xstg m c))

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

def ringRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then barPay g.1.1 else iprop(emp))
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd (F := F) m).payload g r d) := by
  show BI.Storable upEmb (if g.2 = .reg barS then (if d then barPay g.1.1 else iprop(emp)) else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2

theorem duties_bar : (ringRd (F := F) m).duties (barCell c) 0 = Finset.univ := by dsimp only [ringRd]; exact if_pos ⟨rfl, rfl, rfl⟩
theorem duties_send : (ringRd (F := F) m).duties (sendCell c) 0 = {false} := by
  dsimp only [ringRd]; rw [if_neg (fun h => not_bar_send c h.2)]; exact if_pos ⟨rfl, rfl, .inl rfl⟩
theorem duties_recv : (ringRd (F := F) m).duties (recvCell c) 0 = {false} := by
  dsimp only [ringRd]; rw [if_neg (fun h => not_bar_recv c h.2)]; exact if_pos ⟨rfl, rfl, .inr rfl⟩
theorem duties_later (g : GSem nD τ sig) : ∀ r, 1 ≤ r → (ringRd (F := F) m).duties g r = ∅ :=
  fun r hr => by dsimp only [ringRd]; rw [if_neg fun h => by omega, if_neg fun h => by omega]

theorem amount_bar (d : Bool) : (ringRd (F := F) m).amount (barCell c) 0 d = 1 := by dsimp only [ringRd]; exact if_pos rfl
theorem amount_send (d : Bool) : (ringRd (F := F) m).amount (sendCell c) 0 d = N := by dsimp only [ringRd]; exact if_neg send_ne_bar
theorem amount_recv (d : Bool) : (ringRd (F := F) m).amount (recvCell c) 0 d = N := by dsimp only [ringRd]; exact if_neg recv_ne_bar

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (ringRd (F := F) m).expect (sendCell c) 0 = N := by
  unfold Schedule.expect Schedule.amountOf; rw [duties_send, Finset.sum_singleton, amount_send]
theorem expect_recv : (ringRd (F := F) m).expect (recvCell c) 0 = N := by
  unfold Schedule.expect Schedule.amountOf; rw [duties_recv, Finset.sum_singleton, amount_recv]

theorem payload_bar_true : (ringRd (F := F) m).payload (barCell c) 0 true = barPay c := by dsimp only [ringRd]; rw [if_pos rfl, if_pos rfl]
theorem payload_bar_false : (ringRd (F := F) m).payload (barCell c) 0 false = iprop(emp) := by
  dsimp only [ringRd]; rw [if_pos rfl]; exact if_neg Bool.false_ne_true
theorem payload_send (d : Bool) : (ringRd (F := F) m).payload (sendCell c) 0 d = sendPay m c := by
  dsimp only [ringRd]; rw [if_neg send_ne_bar, if_neg send_ne_recv, if_pos rfl]
theorem payload_recv (d : Bool) : (ringRd (F := F) m).payload (recvCell c) 0 d = recvPay m c := by
  dsimp only [ringRd]; rw [if_neg recv_ne_bar, if_pos rfl]

/-- The entry cell's whole round: nothing from the device before, the next device's landing buffer from the device after. -/
theorem rest_bar : bigSep ((ringRd (F := F) m).duties (barCell c) 0 \ ∅) (fun d => (ringRd (F := F) m).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_send : bigSep ((ringRd (F := F) m).duties (sendCell c) 0 \ ∅) (fun d => (ringRd (F := F) m).payload (sendCell c) 0 d) = sendPay m c := by
  rw [Finset.sdiff_empty, duties_send, bigSep_singleton, payload_send]
theorem rest_recv : bigSep ((ringRd (F := F) m).duties (recvCell c) 0 \ ∅) (fun d => (ringRd (F := F) m).payload (recvCell c) 0 d) = recvPay m c := by
  rw [Finset.sdiff_empty, duties_recv, bigSep_singleton, payload_recv]

end Sched

/-! ## What each device owes at launch, and the levels

Device `c` owes the next device's receive cell one copy's credit and each neighbour's entry cell one unit; the
sum is written so that the first signal (to the device before) peels the last summand and the second the middle one.
Entry cells stand at level 1, receive cells at level 2, everything else at level 0: a device waits on its entry
cell owing only a receive cell, and on its receive cell owing nothing. -/

def O₁ (c : Dev nD) : CellTallies nD τ sig Unit := tallyAt (recvCell (nxt c)) () N + tallyAt (barCell (nxt c)) () 1
def O₀ (c : Dev nD) : CellTallies nD τ sig Unit := O₁ c + tallyAt (barCell (prv c)) () 1

def L (g : GSem nD τ sig) : Finset Unit := if g.1.2 = .tc then {()} else ∅
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (nxt c) ∨ g = barCell (nxt c) ∨ g = barCell (prv c) := by
  unfold O₀ O₁ at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by rw [Finset.mem_singleton.mp hp]; dsimp only [lv]; rw [if_neg (fun h => by cases h), if_neg hq])
      (fun g u hg => by
        rcases O₀_pos hg with rfl | rfl | rfl
        · dsimp only [lv]; rw [if_neg recv_ne_bar, if_pos rfl]; decide
        · dsimp only [lv]; rw [if_pos rfl]; decide
        · dsimp only [lv]; rw [if_pos rfl]; decide)
  · rw [MayWait_zero]; iintro -; iempintro

omit [FloatOps F] in
theorem mayWait_bar (c : Dev nD) :
    (levAts L lv : sProp 𝕄) ⊢ MayWait (c : Thread nD τ) (.reg barS) () (tallyAt (recvCell (nxt c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (nxt c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (nxt c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants a device's body opens: its own three, both neighbours' entry cells, the next device's receive cell. -/
def invs (K : Dev nD × Fin 3 → ℕ) (c : Dev nD) : sProp 𝕄 :=
  iprop(cellInv ER (ringRd m) (K (c, 0)) (barCell c) ∗ cellInv ER (ringRd m) (K (c, 1)) (sendCell c) ∗ cellInv ER (ringRd m) (K (c, 2)) (recvCell c)
    ∗ cellInv ER (ringRd m) (K (nxt c, 0)) (barCell (nxt c)) ∗ cellInv ER (ringRd m) (K (prv c, 0)) (barCell (prv c))
    ∗ cellInv ER (ringRd m) (K (nxt c, 2)) (recvCell (nxt c)))

instance invs_persistent (K : Dev nD × Fin 3 → ℕ) (c : Dev nD) : BI.Persistent (invs m K c) := by unfold invs; infer_instance

/-- The ghost state a device starts from: the invariants, its positions at round 0 of its three cells, the rounds
    reached, and the four duty tokens it pays with: the previous device's entry duty `true`, the next device's entry
    duty `false`, the next device's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (nxt c)) 0 ∗ reached ER (barCell (prv c)) 0 ∗ reached ER (recvCell (nxt c)) 0 ∗ reached ER (sendCell c) 0 ∗ reached ER (recvCell c) 0
    ∗ dutyTok ER (barCell (prv c)) 0 true ∗ dutyTok ER (barCell (nxt c)) 0 false ∗ dutyTok ER (recvCell (nxt c)) 0 false ∗ dutyTok ER (sendCell c) 0 false)

def start (c : Dev nD) : sProp 𝕄 :=
  iprop((∃ K, ghost m K c) ∗ cred (tallyAt (barCell c) () 2) ∗ cred (tallyAt (recvCell c) () N) ∗ levAts L lv)

def Φ₀ (c : Dev nD) : sProp 𝕄 := iprop(start m c ∗ (∃ f, hPts c f) ∗ (∃ f, sPts c f))
def Φ₁ (c : Dev nD) : sProp 𝕄 := iprop((∃ f, hPts (F := F) c f) ∗ (∃ f, sPts (F := F) c f) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => kstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelProof

end
-- ==== Proof.KernelViews.lean ====
import proofs.«900792_g7700000000000793_dist_gconv1d_seqshard_i_b4_s1024_c512_v7x_i32_f32_1_alg».proof.Proof.KernelProto
import Idealize.ShloMosaic.Lib.Pipeline.Value
import Idealize.ShloMosaic.Lib.ValueIdx

/-!
# The two stores into the result block, read at an index

The store of positions `3 … 1023` followed by the store of positions `0 … 2` leaves nothing of what the buffer held.
-/

noncomputable section

namespace Cert.KernelProof

open Idealize.ShloMosaic Idealize.ShloMosaic.ValueIdx
open Cert.Kernel Cert.Kernel.Gen

variable {F : FTy → Type} [FloatOps F]

/-- The view of positions `0 … 2` places `(b, r, l)` at `(b, r, l)`. -/
private theorem emb_lo (b : Fin 4) (r : Fin 3) (l : Fin 512) :
    ((oM : Memref sig .tc .vmem S4x1024x512 .f32).access rLo : View sig .tc _ _ _).emb (ix3 b r l)
      = (ix3 b ⟨r.val, by omega⟩ l : S4x1024x512.Idx) := by
  funext a
  apply Fin.ext
  show ((rLo.emb (ix3 b r l)) a : ℕ) = _
  rw [Rect.emb_apply]
  match a with
  | ⟨0, _⟩ => simp
  | ⟨1, _⟩ => simp
  | ⟨2, _⟩ => simp

/-- The view of positions `3 … 1023` places `(b, r, l)` at `(b, r + 3, l)`. -/
private theorem emb_hi (b : Fin 4) (r : Fin 1021) (l : Fin 512) :
    ((oM : Memref sig .tc .vmem S4x1024x512 .f32).access rHi : View sig .tc _ _ _).emb (ix3 b r l)
      = (ix3 b ⟨r.val + 3, by omega⟩ l : S4x1024x512.Idx) := by
  funext a
  apply Fin.ext
  show ((rHi.emb (ix3 b r l)) a : ℕ) = _
  rw [Rect.emb_apply]
  match a with
  | ⟨0, _⟩ => simp
  | ⟨1, _⟩ => show (3 : ℕ) + 1 * r.val = r.val + 3; omega
  | ⟨2, _⟩ => simp

/-- A position `r + 3` is none of the positions `0 … 2`: on the sequence axis every element under that view has a
    coordinate below `3`. -/
private theorem not_mem_lo (b : Fin 4) (r : Fin 1021) (l : Fin 512) :
    (ix3 b ⟨r.val + 3, by omega⟩ l : S4x1024x512.Idx)
      ∉ ((oM : Memref sig .tc .vmem S4x1024x512 .f32).access rLo : View sig .tc _ _ _).setOn Finset.univ := by
  intro h
  obtain ⟨y, hy⟩ := View.exists_emb_of_mem_set _ h
  have h1 : ((rLo.emb y) ⟨1, by decide⟩ : ℕ) = r.val + 3 :=
    congrArg (fun i : S4x1024x512.Idx => ((i ⟨1, by decide⟩ : Fin _) : ℕ)) hy
  rw [Rect.emb_apply] at h1
  have h2 := (y ⟨1, by decide⟩).isLt
  change _ < 3 at h2
  change (0 : ℕ) + 1 * _ = _ at h1
  omega

/-- Position `r < 3` of the result is what the later store wrote. -/
theorem glue_lo (o : (cc0_stg2_0 : Ref sig .tc).ty.Contents (Elt F)) (pHi : FVec F S4x1021x512 .f32) (pLo : FVec F S4x3x512 .f32)
    (b : Fin 4) (r : Fin 3) (l : Fin 512) :
    glue o pHi pLo (ix3 b ⟨r.val, by omega⟩ l) = pLo (ix3 b r l) := by
  unfold glue
  rw [← emb_lo b r l, View.write_emb_of_mem _ _ (Finset.mem_univ _)]
  rfl

/-- Position `r + 3` of the result is entry `r` of what the earlier store wrote. -/
theorem glue_hi (o : (cc0_stg2_0 : Ref sig .tc).ty.Contents (Elt F)) (pHi : FVec F S4x1021x512 .f32) (pLo : FVec F S4x3x512 .f32)
    (b : Fin 4) (r : Fin 1021) (l : Fin 512) :
    glue o pHi pLo (ix3 b ⟨r.val + 3, by omega⟩ l) = pHi (ix3 b r l) := by
  unfold glue
  rw [View.write_of_not_mem _ _ _ (not_mem_lo b r l), ← emb_hi b r l,
    View.write_emb_of_mem _ _ (Finset.mem_univ _)]
  rfl

/-- The two stores cover the buffer. -/
theorem glue_indep (o o' : (cc0_stg2_0 : Ref sig .tc).ty.Contents (Elt F)) (pHi : FVec F S4x1021x512 .f32) (pLo : FVec F S4x3x512 .f32) :
    glue o pHi pLo = glue o' pHi pLo := by
  funext i
  obtain ⟨b, n, l, rfl⟩ : ∃ (b : Fin 4) (n : Fin 1024) (l : Fin 512), i = ix3 b n l :=
    ⟨_, _, _, eq_ix3 (n0 := 4) (n1 := 1024) (n2 := 512) i⟩
  by_cases h : n.val < 3
  · have e : n = ⟨(⟨n.val, h⟩ : Fin 3).val, by omega⟩ := rfl
    rw [e, glue_lo, glue_lo]
  · have e : n = ⟨(⟨n.val - 3, by omega⟩ : Fin 1021).val + 3, by omega⟩ := Fin.ext (by simp; omega)
    rw [e, glue_hi, glue_hi]

end Cert.KernelProof

end
-- ==== Proof.KernelSteps.lean ====
import proofs.«900792_g7700000000000793_dist_gconv1d_seqshard_i_b4_s1024_c512_v7x_i32_f32_1_alg».proof.Proof.KernelProto
import proofs.«900792_g7700000000000793_dist_gconv1d_seqshard_i_b4_s1024_c512_v7x_i32_f32_1_alg».proof.Proof.KernelViews

/-!
# The pieces one device's body is stepped with
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The one device-dependent branch: only device 0 clears its landing buffer -/

/-- The branch condition as the body computes it from the device's id. -/
def isFirst (c : Dev nD) : BitVec 1 :=
  Scalar.cmpi .ne (Scalar.extui (Scalar.cmpi .eq (Scalar.remsi (Scalar.divsi (Dev.word c) 1#32) 32#32) 0#32)) 0#32

theorem isFirst_zero : isFirst (0 : Dev nD) = 1#1 := by decide
theorem isFirst_pos : ∀ c : Dev nD, c.val ≠ 0 → isFirst c = 0#1 := by decide

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 2) ∗ cred (tallyAt (recvCell c) () N) ∗ levAts L lv ∗ (∃ f, hPts c f) ∗ (∃ f, sPts c f))
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ c ∗ (dats m 0 c).owesAt () t₀.succ ∗ stg c cc0_stg0_0 (xstg m c) ∗ stg c cc0_stg1_0 (kstg m c) ∗ stg c cc0_stg2_0 (outAt m c))

/-- The schedule's tables at the cells this body touches, with the ring already resolved. -/
theorem payload_bar_prv (c : Dev nD) :
    (ringRd (F := F) m).payload (barCell (prv c)) 0 true
      = iprop((∃ f, ((hM : Memref sig .tc .vmem S4x3x512 .f32).view.loc (c : Thread nD τ) ↦[(hM : Memref sig .tc .vmem S4x3x512 .f32).view.set]{fullShare} f))
          ∗ reached ER (recvCell c) 0) := by
  rw [payload_bar_true]; unfold barPay hPts; rw [nxt_prv]
theorem payload_bar_own (c : Dev nD) :
    (ringRd (F := F) m).payload (barCell c) 0 true
      = iprop((∃ f, ((hM : Memref sig .tc .vmem S4x3x512 .f32).view.loc (nxt c : Thread nD τ) ↦[(hM : Memref sig .tc .vmem S4x3x512 .f32).view.set]{fullShare} f))
          ∗ reached ER (recvCell (nxt c)) 0) := by
  rw [payload_bar_true]; unfold barPay hPts; rfl
theorem payload_send_pt (c : Dev nD) (d : Bool) :
    (ringRd (F := F) m).payload (sendCell c) 0 d
      = ((sM : Memref sig .tc .vmem S4x3x512 .f32).view.loc (c : Thread nD τ) ↦[(sM : Memref sig .tc .vmem S4x3x512 .f32).view.set]{fullShare} sendC (xstg m c)) := by
  rw [payload_send]; rfl
theorem payload_recv_pt (c : Dev nD) (d : Bool) :
    (ringRd (F := F) m).payload (recvCell c) 0 d
      = ((hM : Memref sig .tc .vmem S4x3x512 .f32).view.loc (c : Thread nD τ) ↦[(hM : Memref sig .tc .vmem S4x3x512 .f32).view.set]{fullShare} landed m c) := by
  rw [payload_recv]; rfl
theorem payload_recv_nxt (c : Dev nD) (d : Bool) :
    (ringRd (F := F) m).payload (recvCell (nxt c)) 0 d
      = ((hM : Memref sig .tc .vmem S4x3x512 .f32).view.loc (nxt c : Thread nD τ) ↦[(hM : Memref sig .tc .vmem S4x3x512 .f32).view.set]{fullShare} sendC (xstg m c)) := by
  rw [payload_recv]; unfold recvPay hPts landed; rw [prv_nxt]

omit [FloatOps F] in
theorem hz3 : (![0, 0, 0] : Fin 3 → Nat) = fun _ => 0 := funext fun a => by fin_cases a <;> rfl
omit [FloatOps F] in
theorem hz2 : (![0, 0] : Fin 2 → Nat) = fun _ => 0 := funext fun a => by fin_cases a <;> rfl

/-- The copy of the outgoing buffer into the next device's landing buffer: it pays the sender's own send duty with the
    outgoing buffer (to come back at the send wait) and the next device's receive duty with the landing buffer holding
    what was sent. -/
theorem send_step (c n : Dev nD) (hn : n = nxt c)
    {hsc : (hM : Memref sig (Dev.tc n : Thread nD τ).2.kind .vmem S4x3x512 .f32).view.ref.isScScratch = false}
    {hsrc : (sM : Memref sig .tc .vmem S4x3x512 .f32).view.WordExact} {hdst : (hM : Memref sig .tc .vmem S4x3x512 .f32).view.WordExact}
    {hsem : DmaTarget.Typed .vmem (.dma recvS.sem) (.remote (Dev.tc n : Thread nD τ) (hM : Memref sig .tc .vmem S4x3x512 .f32) (.dma sendS.sem) hsc)}
    {α : Type} {Q : α → sProp 𝕄} {k : PUnit → Prog (TpuEff nD τ sig (Elt F) Λ₀ .tc) α}
    (fn : Buf (Elt F) ((hM : Memref sig .tc .vmem S4x3x512 .f32).view.loc (nxt c : Thread nD τ))) (W : Waits sig Unit) :
    iprop(cellInv ER (ringRd m) (K (c, 1)) (sendCell c) ∗ cellInv ER (ringRd m) (K (nxt c, 2)) (recvCell (nxt c))
        ∗ ((sM : Memref sig .tc .vmem S4x3x512 .f32).view.loc (c : Thread nD τ) ↦[(sM : Memref sig .tc .vmem S4x3x512 .f32).view.set]{fullShare} sendC (xstg m c))
        ∗ ((hM : Memref sig .tc .vmem S4x3x512 .f32).view.loc (nxt c : Thread nD τ) ↦[(hM : Memref sig .tc .vmem S4x3x512 .f32).view.set]{fullShare} fn)
        ∗ owes (c : Thread nD τ) (tallyAt (recvCell (nxt c)) () N) W
        ∗ dutyTok ER (sendCell c) 0 false ∗ reached ER (sendCell c) 0
        ∗ dutyTok ER (recvCell (nxt c)) 0 false ∗ reached ER (recvCell (nxt c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) hM (.dma sendS.sem) hsc) (.dma recvS.sem) hsrc hdst hsem) k) Q) := by
  subst hn
  exact Rounds.wp_send_pointsTo 𝒱₀ ER (ringRd m) (c : Thread nD τ) none (κ₁ := K (c, 1)) (κ₂ := K (nxt c, 2))
    (r₁ := 0) (r₂ := 0) (d₁ := false) (d₂ := false) (fd := fn)
    (by rw [duties_send]; exact Finset.mem_singleton_self _) (by rw [duties_recv]; exact Finset.mem_singleton_self _)
    () () N rfl (amount_send m c false) (amount_recv m (nxt c) false) 0 (by rw [zero_add]) (W := W)
    (by rw [payload_send]; exact BI.Entails.refl _)
    (by rw [payload_recv]; unfold recvPay hPts; rw [landed_eq, landed, prv_nxt])

/-! ## Reading whole buffers back -/

omit [FloatOps F] in
theorem read_x (f : (cc0_stg0_0 : Ref sig .tc).ty.Contents (Elt F)) :
    (xM : Memref sig .tc .vmem S4x1024x512 .f32).view.readAt (Elt F) rX.toLoadRect f = f :=
  Memref.readAt_unit_zero (Elt F) cc0_stg0_0 hz3 _ f
omit [FloatOps F] in
theorem read_k (f : (cc0_stg1_0 : Ref sig .tc).ty.Contents (Elt F)) :
    (kM : Memref sig .tc .vmem S4x512 .f32).view.readAt (Elt F) rK.toLoadRect f = f :=
  Memref.readAt_unit_zero (Elt F) cc0_stg1_0 hz2 _ f
omit [FloatOps F] in
theorem read_h (f : (cc0_scratch0 : Ref sig .tc).ty.Contents (Elt F)) :
    (hM : Memref sig .tc .vmem S4x3x512 .f32).view.readAt (Elt F) rH.toLoadRect f = f :=
  Memref.readAt_unit_zero (Elt F) cc0_scratch0 hz3 _ f
/-- A load of the whole landing buffer right after a store of the whole buffer reads what was stored. -/
theorem readCov_h (w : FVec F S4x3x512 .f32) :
    (hM : Memref sig .tc .vmem S4x3x512 .f32).view.readCov [(⟨rH, w⟩ : View.Piece (Elt F) S4x3x512 .f32)] rH.toLoadRect = w :=
  View.readCov_unit_zero (Val := Elt F) (S := S4x3x512) (e := .f32) (hM : Memref sig .tc .vmem S4x3x512 .f32).view (off := ![0, 0, 0]) hz3 inb_S4x3x512_S4x3x512_0_0_0 w
omit [FloatOps F] in
/-- The outgoing buffer after its one whole store. -/
theorem writes_s (fs : (cc0_scratch1 : Ref sig .tc).ty.Contents (Elt F)) (w : FVec F S4x3x512 .f32) :
    (sM : Memref sig .tc .vmem S4x3x512 .f32).view.writes (Elt F) fs [⟨rH, w⟩] = w := by
  rw [View.writes_singleton]; exact Memref.write_access_unit_zero_univ (Elt F) cc0_scratch1 hz3 _ fs _
omit [FloatOps F] in
/-- The result's staging buffer after its two stores. -/
theorem writes_o (o : (cc0_stg2_0 : Ref sig .tc).ty.Contents (Elt F)) (pHi : FVec F S4x1021x512 .f32) (pLo : FVec F S4x3x512 .f32) :
    (oM : Memref sig .tc .vmem S4x1024x512 .f32).view.writes (Elt F) o [⟨rLo, pLo⟩, ⟨rHi, pHi⟩] = glue o pHi pLo := rfl

end Body

end Cert.KernelProof

end
-- ==== Proof.KernelBody.lean ====
import proofs.«900792_g7700000000000793_dist_gconv1d_seqshard_i_b4_s1024_c512_v7x_i32_f32_1_alg».proof.Proof.KernelSteps

/-!
# One device's body, stepped once at a symbolic device
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (K : Dev nD × Fin 3 → ℕ)

theorem duties_bar2 (c : Dev nD) : (ringRd (F := F) m).duties (barCell c) 0 = {false, true} := by rw [duties_bar]; decide
attribute [local sl_rounds] duties_bar2 duties_send duties_recv amount_bar amount_send amount_recv expect_bar expect_send expect_recv
  payload_bar_prv payload_bar_own payload_bar_false payload_send_pt payload_recv_pt payload_recv_nxt
attribute [local sl_canon] dev1_eq dev2_eq dev3_eq
set_option maxHeartbeats 1600000 in
/-- The body from what a device holds at entry to what it holds at exit. The two entry signals, the wait for both
    neighbours, the copy to the next device and the two copy waits go by the cells' one-round schedule; only device 0 takes
    the branch that clears the landing buffer. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  unfold bodyPre ghost invs
  iintro ⟨⟨⟨⟨⟨#HIbar, #HIsnd, #HIrcv, #HIbarN, #HIbarP, #HIrcvN⟩, HatB, HatS, HatV, #HrBN, #HrBP, #HrVN, #HrS, #HrV, HtBP, HtBN, HtVN, HtS⟩, HcB, HcV, #Hlev, ⟨%fh, Hh⟩, ⟨%fs, Hs⟩⟩,
    Ho, ⟨%d0, %g0, %hg0, Hx⟩, ⟨%d1, %g1, %hg1, Hk⟩, ⟨%d2, %g2, %hg2, Hout⟩⟩, Hpost⟩
  have hx : g0 = xstg m c := by rw [hg0]; unfold Dat.before; rw [if_pos (fetch_0 t₀)]; rfl
  have hk : g1 = kstg m c := by rw [hg1]; unfold Dat.before; rw [if_pos (fetch_1 t₀)]; rfl
  subst hx hk
  clear hg0 hg1 hg2
  unfold Dat.owesAt Pipeline.owesWithin
  icases Ho with ⟨%W, %hW, HO⟩
  rw [show (dats m 0 c).owed t₀.castSucc = O₀ c from rfl]
  unfold O₀ O₁ hPts sPts
  have hmw := mayWait_bar (F := F) c
  -- which way the one branch goes, and what the landing buffer holds after it
  have key : (isFirst c = 1#1 ∧ haloC m c = k0_pay6 (F := F)) ∨ (¬ isFirst c = 1#1 ∧ haloC m c = landed m c) := by
    by_cases h0 : c.val = 0
    · left; exact ⟨by have : c = 0 := Fin.ext h0; subst this; exact isFirst_zero, by unfold haloC; rw [if_pos h0]⟩
    · right; exact ⟨by rw [isFirst_pos c h0]; decide, by unfold haloC; rw [if_neg h0]⟩
  ihave Hx := (Entails.of_eq (show ((c : Thread nD τ).loc cc0_stg0_0 ↦{fullShare} xstg m c : sProp 𝕄)
      = ((xM : Memref sig .tc .vmem S4x1024x512 .f32).view.loc (c : Thread nD τ) ↦{fullShare} xstg m c) from rfl)) $$ Hx
  ihave Hk := (Entails.of_eq (show ((c : Thread nD τ).loc cc0_stg1_0 ↦{fullShare} kstg m c : sProp 𝕄)
      = ((kM : Memref sig .tc .vmem S4x512 .f32).view.loc (c : Thread nD τ) ↦{fullShare} kstg m c) from rfl)) $$ Hk
  ihave Hout := (Entails.of_eq (show ((c : Thread nD τ).loc cc0_stg2_0 ↦{fullShare} g2 : sProp 𝕄)
      = ((oM : Memref sig .tc .vmem S4x1024x512 .f32).view.loc (c : Thread nD τ) ↦{fullShare} g2) from rfl)) $$ Hout
  rcases key with ⟨hcond, hhalo⟩ | ⟨hcond, hhalo⟩ <;> (
  sl_exec
  -- the first signal, to the device before: it hands over this device's landing buffer
  iapply (Rounds.wp_signal 𝒱₀ ER (ringRd m) (c : Thread nD τ) none (dst := (prv c : Thread nD τ)) (κ := K (prv c, 0))
      (d := true) (by rw [duties_bar]; exact Finset.mem_univ _) ((amount_bar m (prv c) true).trans (by decide)) ()
      (tallyAt (recvCell (nxt c)) () N + tallyAt (barCell (nxt c)) () 1) rfl) $$ [HO HtBP Hh]
  · isplitr; · iexact HIbarP
    isplitl [HO]; · iexact HO
    isplitl [HtBP]; · iexact HtBP
    isplitl [Hh]
    · rw [payload_bar_prv]
      isplitl [Hh]; · iexists fh; iexact Hh
      iexact HrV
    · iexact HrBP
  iintro HO
  -- the second signal, the wait for both neighbours, the fill of the outgoing buffer
  sl_exec
  rw [writes_s]
  -- the copy into the next device's landing buffer
  iapply (send_step m K c _ (dev3_eq c) HatB_pay1_v _) $$ [Hs HatB_pay1 HO HtS HtVN]
  · isplitr; · iexact HIsnd
    isplitr; · iexact HIrcvN
    isplitl [Hs]; · unfold sendC tailOf; iexact Hs
    isplitl [HatB_pay1]; · iexact HatB_pay1
    isplitl [HO]; · iexact HO
    isplitl [HtS]; · iexact HtS
    isplitr; · iexact HrS
    isplitl [HtVN]; · iexact HtVN
    iexact HrVN
  iintro ⟨HcS, HO⟩
  -- positions 3 … 1023, the landing, the branch, positions 0 … 2, the send wait
  sl_exec (disch := first | exact hcond)
  sl_unfold_words
  -- the two own cells close: their counters at zero are the device's again
  imod (Rounds.cell_close ER (ringRd m) (Set.mem_univ (K (c, 1))) (fun h => h) (R := 0 + 1) (duties_later m (sendCell c))) $$ [HatS] with HzS
  · isplitr; · iexact HIsnd
    iexact HatS
  imod (Rounds.cell_close ER (ringRd m) (Set.mem_univ (K (c, 2))) (fun h => h) (R := 0 + 1) (duties_later m (recvCell c))) $$ [HatV] with HzV
  · isplitr; · iexact HIrcv
    iexact HatV
  sl_step
  iapply Hpost
  unfold bodyPost Φ₁ Dat.owesAt Pipeline.owesWithin hPts sPts
  rw [show (dats m 0 c).owed t₀.succ = 0 from rfl]
  isplitl [HatV_pay1 HatS_pay1 HzS HzV]
  · isplitl [HatV_pay1]; · iexists _; iexact HatV_pay1
    isplitl [HatS_pay1]; · iexists _; iexact HatS_pay1
    isplitl [HzS]; · iexact HzS
    iexact HzV
  isplitl [HO]
  · iexists _; isplitr; swap; (· iexact HO); ipureintro; exact fun _ _ => Or.inl trivial
  isplitl [Hx]
  · iexists _; isplitr; swap; (· iexact Hx); ipureintro; rfl
  isplitl [Hk]
  · iexists _; isplitr; swap; (· iexact Hk); ipureintro; rfl
  iexists _; isplitr; swap; (· iexact Hout); ipureintro
  rw [read_x, read_k]
  first | rw [readCov_h] | rw [read_h]
  rw [← hhalo]
  unfold outAt outHi outLo
  exact (writes_o g2 _ _).trans (glue_indep g2 (xstg m c) _ _))

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

set_option maxRecDepth 4000 in
/-- The pipeline's body obligation on a device: the invariant and the three staging buffers taken apart, the body
    run, its post handed back. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost m c)
  unfold bodyPre' Φ₀ start
  iintro ⟨⟨⟨⟨%K, Hg⟩, Hrest⟩, Hh, Hs⟩, Ho, Hx, Hk, Hout⟩
  iapply (sound_body m K c fun _ => bodyPost m c)
  unfold bodyPre
  isplitr []
  · isplitl [Hg Hrest Hh Hs]
    · isplitl [Hg]; · iexact Hg
      icases Hrest with ⟨H1, H2, H3⟩
      isplitl [H1]; · iexact H1
      isplitl [H2]; · iexact H2
      isplitl [H3]; · iexact H3
      isplitl [Hh]; · iexact Hh
      iexact Hs
    isplitl [Ho]; · iexact Ho
    isplitl [Hx]; · iexact Hx
    isplitl [Hk]; · iexact Hk
    iexact Hout
  · iintro H; iexact H

end Body

end Cert.KernelProof

end
-- ==== Proof.KernelLaunch.lean ====
import proofs.«900792_g7700000000000793_dist_gconv1d_seqshard_i_b4_s1024_c512_v7x_i32_f32_1_alg».proof.Proof.KernelProto

/-!
# The launch: the ring's ghost state dealt to the thirty-two devices, and the credit each starts with
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- A device's own cells' duty tokens as minted: its entry cell's two, its send cell's and its receive cell's one. -/
abbrev tokOf (cj : Dev nD × Fin 4) : GSem nD τ sig × ℕ × Bool := match cj.2 with
  | 0 => (barCell cj.1, 0, false) | 1 => (barCell cj.1, 0, true) | 2 => (sendCell cj.1, 0, false) | 3 => (recvCell cj.1, 0, false)
theorem tokOf_injective : Function.Injective (tokOf : Dev nD × Fin 4 → GSem nD τ sig × ℕ × Bool) := by
  rintro ⟨c, j⟩ ⟨c', j'⟩ h
  have h1 : c = c' := by
    have := congrArg (fun x : GSem nD τ sig × ℕ × Bool => x.1.1.1) h
    fin_cases j <;> fin_cases j' <;> exact this
  subst h1
  have : j = j' := by
    fin_cases j <;> fin_cases j' <;> first | rfl | exact absurd (congrArg (fun x : GSem nD τ sig × ℕ × Bool => (x.1.2, x.2.2)) h) (fun h' => by cases h')
  subst this; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of a device's own cells. -/
def toks (c : Dev nD) : sProp 𝕄 :=
  iprop(dutyTok ER (barCell c) 0 false ∗ dutyTok ER (barCell c) 0 true ∗ dutyTok ER (sendCell c) 0 false ∗ dutyTok ER (recvCell c) 0 false)

/-- What the launch element deals a device. -/
def G (c : Dev nD) : sProp 𝕄 :=
  iprop((bigSep Finset.univ fun k : Fin 3 => roundState ER (ringRd m) (kcell (c, k)) 0)
    ∗ (bigSep Finset.univ fun k : Fin 3 => iprop(atPos ER (kcell (c, k)) 0 ∅ 0 ∗ reached ER (kcell (c, k)) 0)) ∗ toks c)

/-- What the step over all devices makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 3 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin4]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- The entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (ringRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (ringRd m) (K ck) (kcell ck) : sProp 𝕄)) ⊢ cellInv ER (ringRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with a device: its positions, and the tokens of the duties IT pays. -/
def payToks (c : Dev nD) : sProp 𝕄 :=
  iprop(dutyTok ER (barCell (nxt c)) 0 false ∗ dutyTok ER (barCell (prv c)) 0 true ∗ dutyTok ER (recvCell (nxt c)) 0 false ∗ dutyTok ER (sendCell c) 0 false)
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBN, HtBP, HtVN, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (nxt c, 0)); iexact HI
    isplitr; · iapply (inv_at m K (prv c, 0)); iexact HI
    iapply (inv_at m K (nxt c, 2)); iexact HI
  isplitl [HaB]; · iexact HaB
  isplitl [HaS]; · iexact HaS
  isplitl [HaV]; · iexact HaV
  isplitr; · iapply (reached_at (F := F) (nxt c, 0)); iexact HR
  isplitr; · iapply (reached_at (F := F) (prv c, 0)); iexact HR
  isplitr; · iapply (reached_at (F := F) (nxt c, 2)); iexact HR
  isplitr; · iapply (reached_at (F := F) (c, 1)); iexact HR
  isplitr; · iapply (reached_at (F := F) (c, 2)); iexact HR
  isplitl [HtBP]; · iexact HtBP
  isplitl [HtBN]; · iexact HtBN
  isplitl [HtVN]; · iexact HtVN
  iexact HtS

omit [FloatOps F] in
/-- The tokens dealt around the ring: an entry cell's `false` token one device down (to the device before), its
    `true` token one device up, the receive token one device down. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (recvCell c) 0 false : sProp 𝕄))]
  iintro ⟨H1, H2, H3, H4⟩
  isplitl [H1]; · iexact H1
  isplitl [H2]; · iexact H2
  isplitl [H4]; · iexact H4
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (ringRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The step over all devices at once: their own and their unscoped semaphores. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The credit a device starts with -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s entry cell: a unit if `c` comes after `d`, a unit if `c` comes before `d`. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, tallyAt_ne_cell (fun h => recv_ne_bar (congrArg Prod.snd h).symm),
    tallyAt_apply, tallyAt_apply, Finsupp.zero_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

omit [FloatOps F] in
theorem owed_recv (d c : Dev nD) : O₀ d (recvCell c) () = if d = prv c then N else 0 := by
  unfold O₀ O₁
  rw [Pi.add_apply, Finsupp.add_apply, Pi.add_apply, Finsupp.add_apply, tallyAt_apply,
    tallyAt_ne_cell (fun h => recv_ne_bar (congrArg Prod.snd h)), tallyAt_ne_cell (fun h => recv_ne_bar (congrArg Prod.snd h)), Finsupp.zero_apply, Nat.add_zero, Nat.add_zero]
  by_cases h : d = prv c
  · subst h; rw [nxt_prv, if_pos ⟨rfl, rfl⟩, if_pos rfl]
  · rw [if_neg (fun ⟨h1, _⟩ => h (by rw [← prv_nxt d]; exact congrArg prv (recv_eq_iff.mp h1).symm)), if_neg h]

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (prv c) fun _ => N,
    if_pos (Finset.mem_univ _)]

omit [FloatOps F] in
theorem creds (c : Dev nD) :
    (Pipeline.launchCred O₀ c : sProp 𝕄) ⊢ iprop(cred (tallyAt (barCell c) () 2) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### What the launch theorem asks at each device -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩, ⟨%g, Hq⟩⟩
  isplitl [Hs]; · iexact Hs
  isplitl [Hr]
  · iexists f; rw [hPts_eq]; iexact Hr
  · iexists g; rw [sPts_eq]; iexact Hq

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f, Hr⟩, ⟨%g, Hq⟩, HzS, HzV⟩
  isplitr; · iempintro
  isplitl [HzS HzV]
  · isplitl [HzS] <;> iassumption
  isplitl [Hr]
  · iexists f; rw [← hPts_eq]; iexact Hr
  · iexists g; rw [← sPts_eq]; iexact Hq

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

end Cert.KernelProof

end
-- ==== Proof.KernelRun.lean ====
import proofs.«900792_g7700000000000793_dist_gconv1d_seqshard_i_b4_s1024_c512_v7x_i32_f32_1_alg».proof.Proof.KernelBody
import proofs.«900792_g7700000000000793_dist_gconv1d_seqshard_i_b4_s1024_c512_v7x_i32_f32_1_alg».proof.Proof.KernelLaunch
import Idealize.ShloMosaic.Lib.Pipeline.Value

/-!
# The run of the whole mesh: every device's final arrays
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The arrays after the run, as the pipeline's write-backs leave them. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of thirty-two devices, for any float values, from any memory with zero counters: every weakly
    fair execution of @main terminates, and every final state has each device's three arrays at the contents named. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

/-- The two argument arrays end holding what they held. -/
theorem finalA_x (c : Dev nD) : finalA m c (0 : Fin 3) = m ((c : Thread nD τ).loc main_arg0) :=
  (dats (F := F) m 0 c).arrAt_in (0 : Fin 3) rfl _
theorem finalA_k (c : Dev nD) : finalA m c (1 : Fin 3) = m ((c : Thread nD τ).loc main_arg1) :=
  (dats (F := F) m 0 c).arrAt_in (1 : Fin 3) rfl _

omit [FloatOps F] in
/-- The result's one block is the whole array: reading it reads the array, -/
theorem read_blk_o (c : Dev nD) (G : Buf (Elt F) ((cfg0.win (2 : Fin 3)).arr.view.loc (c : Thread nD τ))) :
    ((cfg0.win (2 : Fin 3)).blk t₀).view.read (Elt F) G = G :=
  Memref.read_access_unit_zero (Elt F) main_v1 (funext fun a => by fin_cases a <;> rfl) _ G

omit [FloatOps F] in
/-- an access through the rectangle of a buffer's own sizes at zero offsets goes through all its elements, -/
theorem set_access_unit_zero {κ : Kind} (b : Ref sig κ) {off : Fin b.ty.shape.rank → Nat} (h : off = fun _ => 0)
    (inb : ∀ a, off a + b.ty.shape.size a ≤ b.ty.shape.size a) :
    ((Memref.whole b).access (Rect.unit off b.ty.shape.size inb) : View sig κ _ _ _).set = Finset.univ := by
  subst h; exact Memref.set_access_whole b

omit [FloatOps F] in
/-- and so the block covers the array. -/
theorem set_blk_o : ((cfg0.win (2 : Fin 3)).blk t₀).view.set = Finset.univ :=
  set_access_unit_zero main_v1 (funext fun a => by fin_cases a <;> rfl) _

/-- The result array ends holding the device's result block: its one block is the whole array and is written back. -/
theorem finalA_o (c : Dev nD) : finalA m c (2 : Fin 3) = outAt m c :=
  (dats (F := F) m 0 c).arrAt_eq_of_cover (2 : Fin 3) (outAt m c)
    (fun t _ => by
      rw [fin_N t, read_blk_o (F := F) c]
      rfl)
    (fun i => ⟨t₀, rfl, by rw [set_blk_o]; exact Finset.mem_univ _⟩)

/-- The run with every device's result named and its arguments unchanged. -/
theorem run_vals : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨((h c (2 : Fin 3)).trans (finalA_o m c)), ((h c (0 : Fin 3)).trans (finalA_x m c)), ((h c (1 : Fin 3)).trans (finalA_k m c))⟩)
    (run_main m ρ)

end Cert.KernelProof

end
-- ==== Proof.KernelIdealProto.lean ====
import proofs.«900792_g7700000000000793_dist_gconv1d_seqshard_i_b4_s1024_c512_v7x_i32_f32_1_alg».proof.Proof.Gen.KernelIdeal
import proofs.«900792_g7700000000000793_dist_gconv1d_seqshard_i_b4_s1024_c512_v7x_i32_f32_1_alg».proof.Proof.Gen.KernelIdeal.Skeleton
import proofs.«900792_g7700000000000793_dist_gconv1d_seqshard_i_b4_s1024_c512_v7x_i32_f32_1_alg».proof.Proof.Gen.KernelIdeal.Launch
import Idealize.ShloMosaic.Lib.Pipeline.Launch
import Idealize.ShloMosaic.Lib.Pipeline.Kit
import Idealize.ShloMosaic.Lib.Tactic

/-!
# The halo exchange of the sequence-sharded causal convolution: ring, cells, contents and schedule

Thirty-two devices on a ring each hold 1024 consecutive sequence positions of `x`. A four-tap causal
convolution at position `n` reads positions `n-3 … n`, so the first three positions of a device's block need
the last three positions of the block before it (device 0 needs zeros). Each device therefore

* tells both ring neighbours it has entered (one unit on each neighbour's entry semaphore) and waits for two units
  on its own,
* copies its last three positions into the next device's landing buffer,
* computes positions `3 … 1023` from its own block,
* waits for the landing from the device before it (device 0 then overwrites what landed with zeros),
* computes positions `0 … 2` from what landed and its own first three positions,
* waits until its own copy has left.

This module names the ring, the semaphore cells, what every buffer holds at each stage and the one-round
schedule of the cells: who pays each unit and what its landing hands the cell's owner.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two resource algebras side by side: the staging pipeline's (one duty a round) and the ring's (two) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring of thirty-two devices -/

def nxt (c : Dev nD) : Dev nD := ⟨(c.val + 1) % 32, Nat.mod_lt _ (by decide)⟩
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- The three device ids the body computes: the first entry signal goes to the device before, the second to the
    device after, and the copy to the device after. -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)

def ring : Dev nD ≃ Dev nD := ⟨nxt, prv, prv_nxt, nxt_prv⟩

/-! ## Buffers and cells -/

/-- The staged block of `x`, the staged taps, the staged result block, the landing buffer and the outgoing buffer. -/
abbrev xM : Memref sig .tc .vmem S4x1024x512 .f32 := Memref.whole cc0_stg0_0
abbrev kM : Memref sig .tc .vmem S4x512 .f32 := Memref.whole cc0_stg1_0
abbrev oM : Memref sig .tc .vmem S4x1024x512 .f32 := Memref.whole cc0_stg2_0
abbrev hM : Memref sig .tc .vmem S4x3x512 .f32 := Memref.whole cc0_scratch0
abbrev sM : Memref sig .tc .vmem S4x3x512 .f32 := Memref.whole cc0_scratch1

/-- The entry semaphore (one per device, not scoped to the call) and the two copy semaphores. -/
abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one copy of three positions. -/
abbrev N : ℕ := (hM : Memref sig .tc .vmem S4x3x512 .f32).view.dmaCredit
theorem N_pos : 0 < N := View.dmaCredit_pos _ (by decide)

/-! ## What the buffers hold -/

/-- The rectangles the body reads and writes: the last three positions of the block, positions `3 … 1023` and
    positions `0 … 2` of the result. -/
abbrev rTail : Rect S4x1024x512 := Rect.unit (s := S4x1024x512) ![0, 1021, 0] S4x3x512.size inb_S4x1024x512_S4x3x512_0_1021_0
abbrev rHi : Rect S4x1024x512 := Rect.unit (s := S4x1024x512) ![0, 3, 0] S4x1021x512.size inb_S4x1024x512_S4x1021x512_0_3_0
abbrev rLo : Rect S4x1024x512 := Rect.unit (s := S4x1024x512) ![0, 0, 0] S4x3x512.size inb_S4x1024x512_S4x3x512_0_0_0
abbrev rX : Rect S4x1024x512 := Rect.unit (s := S4x1024x512) ![0, 0, 0] S4x1024x512.size inb_S4x1024x512_S4x1024x512_0_0_0
abbrev rK : Rect S4x512 := Rect.unit (s := S4x512) ![0, 0] S4x512.size inb_S4x512_S4x512_0_0
abbrev rH : Rect S4x3x512 := Rect.unit (s := S4x3x512) ![0, 0, 0] S4x3x512.size inb_S4x3x512_S4x3x512_0_0_0

/-- Device `c`'s block of `x` and its copy of the taps, as staged. -/
def xstg (c : Dev nD) : (cc0_stg0_0 : Ref sig .tc).ty.Contents (Elt F) :=
  (win0_0.blk (0 : Fin 1)).view.read (Elt F) (m ((c : Thread nD τ).loc main_arg0))
def kstg (c : Dev nD) : (cc0_stg1_0 : Ref sig .tc).ty.Contents (Elt F) :=
  (win0_1.blk (0 : Fin 1)).view.read (Elt F) (m ((c : Thread nD τ).loc main_arg1))

/-- The last three positions of a block. -/
def tailOf (x : (cc0_stg0_0 : Ref sig .tc).ty.Contents (Elt F)) : Vec F S4x3x512 .f32 :=
  (xM : Memref sig .tc .vmem S4x1024x512 .f32).view.readAt (Elt F) rTail.toLoadRect x

/-- What a device puts in its outgoing buffer: the last three positions of its block. -/
def sendC (x : (cc0_stg0_0 : Ref sig .tc).ty.Contents (Elt F)) : (cc0_scratch1 : Ref sig .tc).ty.Contents (Elt F) :=
  k0_pay2 (tailOf x)

/-- What lands on device `c`: the outgoing buffer of the device before it. -/
def landed (c : Dev nD) : (cc0_scratch0 : Ref sig .tc).ty.Contents (Elt F) := sendC (xstg m (prv c))

/-- What the landing buffer holds when the first three positions are computed: zeros on device 0 (nothing comes
    before position 0 of the sequence), elsewhere what landed. -/
def haloC (c : Dev nD) : (cc0_scratch0 : Ref sig .tc).ty.Contents (Elt F) :=
  if c.val = 0 then k0_pay6 (F := F) else landed m c

/-- Positions `3 … 1023` of the result, from the block and the taps alone. -/
def outHi (x : (cc0_stg0_0 : Ref sig .tc).ty.Contents (Elt F)) (k : (cc0_stg1_0 : Ref sig .tc).ty.Contents (Elt F)) :
    FVec F S4x1021x512 .f32 := k0_pay5 (k0_pay3 x) (k0_pay4 k)

/-- Positions `0 … 2` of the result, from the block, the taps and the three positions before the block. -/
def outLo (x : (cc0_stg0_0 : Ref sig .tc).ty.Contents (Elt F)) (k : (cc0_stg1_0 : Ref sig .tc).ty.Contents (Elt F))
    (h : (cc0_scratch0 : Ref sig .tc).ty.Contents (Elt F)) : FVec F S4x3x512 .f32 :=
  k0_pay1 (k0_pay4 k) (k0_pay7 (k0_pay3 x) h) (k0_pay8 (k0_pay3 x) (k0_pay4 k) h) (k0_pay9 (k0_pay3 x) h)

/-- The two stores into the result's staging buffer, the later one last. -/
def glue (o : (cc0_stg2_0 : Ref sig .tc).ty.Contents (Elt F)) (pHi : FVec F S4x1021x512 .f32) (pLo : FVec F S4x3x512 .f32) :
    (cc0_stg2_0 : Ref sig .tc).ty.Contents (Elt F) :=
  ((oM : Memref sig .tc .vmem S4x1024x512 .f32).access rLo : View sig .tc _ _ _).write (Elt F)
    (((oM : Memref sig .tc .vmem S4x1024x512 .f32).access rHi : View sig .tc _ _ _).write (Elt F) o pHi Finset.univ) pLo Finset.univ

/-- The result block of device `c`. The two stores cover the buffer, so what it held before does not matter:
    the block itself stands in for it. -/
def outAt (c : Dev nD) : (cc0_stg2_0 : Ref sig .tc).ty.Contents (Elt F) :=
  glue (xstg m c) (outHi (xstg m c) (kstg m c)) (outLo (xstg m c) (kstg m c) (haloC m c))

/-! ## Points-to facts of the two exchange buffers -/

def hPts (c : Dev nD) (f : Buf (Elt F) ((hM : Memref sig .tc .vmem S4x3x512 .f32).view.loc (c : Thread nD τ))) : sProp 𝕄 :=
  (hM : Memref sig .tc .vmem S4x3x512 .f32).view.loc (c : Thread nD τ) ↦[(hM : Memref sig .tc .vmem S4x3x512 .f32).view.set]{fullShare} f
def sPts (c : Dev nD) (f : Buf (Elt F) ((sM : Memref sig .tc .vmem S4x3x512 .f32).view.loc (c : Thread nD τ))) : sProp 𝕄 :=
  (sM : Memref sig .tc .vmem S4x3x512 .f32).view.loc (c : Thread nD τ) ↦[(sM : Memref sig .tc .vmem S4x3x512 .f32).view.set]{fullShare} f

omit [FloatOps F] in
instance hPts_storable (c : Dev nD) (f) : BI.Storable (upEmb : UEmb _ 𝕄) (hPts (F := F) c f) := by unfold hPts; infer_instance
omit [FloatOps F] in
instance sPts_storable (c : Dev nD) (f) : BI.Storable (upEmb : UEmb _ 𝕄) (sPts (F := F) c f) := by unfold sPts; infer_instance

omit [FloatOps F] in
theorem h_set : (hM : Memref sig .tc .vmem S4x3x512 .f32).view.set = Finset.univ := View.set_whole _
omit [FloatOps F] in
theorem s_set : (sM : Memref sig .tc .vmem S4x3x512 .f32).view.set = Finset.univ := View.set_whole _
omit [FloatOps F] in
theorem hPts_eq (c : Dev nD) (f : Buf (Elt F) ((c : Thread nD τ).loc cc0_scratch0)) :
    hPts c f = (((c : Thread nD τ).loc cc0_scratch0) ↦{fullShare} f : sProp 𝕄) := by unfold hPts; rw [h_set]
omit [FloatOps F] in
theorem sPts_eq (c : Dev nD) (f : Buf (Elt F) ((c : Thread nD τ).loc cc0_scratch1)) :
    sPts c f = (((c : Thread nD τ).loc cc0_scratch1) ↦{fullShare} f : sProp 𝕄) := by unfold sPts; rw [s_set]

omit [FloatOps F] in
/-- A whole-buffer copy leaves the destination holding the source's contents. -/
theorem landed_eq (c : Dev nD) (fd : Buf (Elt F) ((hM : Memref sig .tc .vmem S4x3x512 .f32).view.loc (c : Thread nD τ)))
    (fs : (cc0_scratch1 : Ref sig .tc).ty.Contents (Elt F)) :
    (hM : Memref sig .tc .vmem S4x3x512 .f32).view.write (Elt F) fd ((sM : Memref sig .tc .vmem S4x3x512 .f32).view.read (Elt F) fs) Finset.univ = fs := by
  show (View.whole cc0_scratch0).write (Elt F) fd ((View.whole cc0_scratch1).read (Elt F) fs) Finset.univ = fs
  rw [View.read_whole]
  exact View.write_whole_univ _ _ _

/-! ## The schedule: one round

A device's entry cell has two duties of one unit each: `true`, paid by the device after it, which hands over its
own landing buffer and the fact that its receive cell stands at round 0 (what a copy into it needs); `false`, paid
by the device before it, which hands over nothing. The send cell's one duty returns the outgoing buffer; the
receive cell's one duty hands over the landing buffer holding the previous device's last three positions. -/

def barPay (c : Dev nD) : sProp 𝕄 := iprop((∃ f, hPts (nxt c) f) ∗ reached ER (recvCell (nxt c)) 0)
def recvPay (c : Dev nD) : sProp 𝕄 := hPts c (landed m c)
def sendPay (c : Dev nD) : sProp 𝕄 := sPts c (sendC (xstg m c))

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

def ringRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then barPay g.1.1 else iprop(emp))
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd (F := F) m).payload g r d) := by
  show BI.Storable upEmb (if g.2 = .reg barS then (if d then barPay g.1.1 else iprop(emp)) else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2

theorem duties_bar : (ringRd (F := F) m).duties (barCell c) 0 = Finset.univ := by dsimp only [ringRd]; exact if_pos ⟨rfl, rfl, rfl⟩
theorem duties_send : (ringRd (F := F) m).duties (sendCell c) 0 = {false} := by
  dsimp only [ringRd]; rw [if_neg (fun h => not_bar_send c h.2)]; exact if_pos ⟨rfl, rfl, .inl rfl⟩
theorem duties_recv : (ringRd (F := F) m).duties (recvCell c) 0 = {false} := by
  dsimp only [ringRd]; rw [if_neg (fun h => not_bar_recv c h.2)]; exact if_pos ⟨rfl, rfl, .inr rfl⟩
theorem duties_later (g : GSem nD τ sig) : ∀ r, 1 ≤ r → (ringRd (F := F) m).duties g r = ∅ :=
  fun r hr => by dsimp only [ringRd]; rw [if_neg fun h => by omega, if_neg fun h => by omega]

theorem amount_bar (d : Bool) : (ringRd (F := F) m).amount (barCell c) 0 d = 1 := by dsimp only [ringRd]; exact if_pos rfl
theorem amount_send (d : Bool) : (ringRd (F := F) m).amount (sendCell c) 0 d = N := by dsimp only [ringRd]; exact if_neg send_ne_bar
theorem amount_recv (d : Bool) : (ringRd (F := F) m).amount (recvCell c) 0 d = N := by dsimp only [ringRd]; exact if_neg recv_ne_bar

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (ringRd (F := F) m).expect (sendCell c) 0 = N := by
  unfold Schedule.expect Schedule.amountOf; rw [duties_send, Finset.sum_singleton, amount_send]
theorem expect_recv : (ringRd (F := F) m).expect (recvCell c) 0 = N := by
  unfold Schedule.expect Schedule.amountOf; rw [duties_recv, Finset.sum_singleton, amount_recv]

theorem payload_bar_true : (ringRd (F := F) m).payload (barCell c) 0 true = barPay c := by dsimp only [ringRd]; rw [if_pos rfl, if_pos rfl]
theorem payload_bar_false : (ringRd (F := F) m).payload (barCell c) 0 false = iprop(emp) := by
  dsimp only [ringRd]; rw [if_pos rfl]; exact if_neg Bool.false_ne_true
theorem payload_send (d : Bool) : (ringRd (F := F) m).payload (sendCell c) 0 d = sendPay m c := by
  dsimp only [ringRd]; rw [if_neg send_ne_bar, if_neg send_ne_recv, if_pos rfl]
theorem payload_recv (d : Bool) : (ringRd (F := F) m).payload (recvCell c) 0 d = recvPay m c := by
  dsimp only [ringRd]; rw [if_neg recv_ne_bar, if_pos rfl]

/-- The entry cell's whole round: nothing from the device before, the next device's landing buffer from the device after. -/
theorem rest_bar : bigSep ((ringRd (F := F) m).duties (barCell c) 0 \ ∅) (fun d => (ringRd (F := F) m).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_send : bigSep ((ringRd (F := F) m).duties (sendCell c) 0 \ ∅) (fun d => (ringRd (F := F) m).payload (sendCell c) 0 d) = sendPay m c := by
  rw [Finset.sdiff_empty, duties_send, bigSep_singleton, payload_send]
theorem rest_recv : bigSep ((ringRd (F := F) m).duties (recvCell c) 0 \ ∅) (fun d => (ringRd (F := F) m).payload (recvCell c) 0 d) = recvPay m c := by
  rw [Finset.sdiff_empty, duties_recv, bigSep_singleton, payload_recv]

end Sched

/-! ## What each device owes at launch, and the levels

Device `c` owes the next device's receive cell one copy's credit and each neighbour's entry cell one unit; the
sum is written so that the first signal (to the device before) peels the last summand and the second the middle one.
Entry cells stand at level 1, receive cells at level 2, everything else at level 0: a device waits on its entry
cell owing only a receive cell, and on its receive cell owing nothing. -/

def O₁ (c : Dev nD) : CellTallies nD τ sig Unit := tallyAt (recvCell (nxt c)) () N + tallyAt (barCell (nxt c)) () 1
def O₀ (c : Dev nD) : CellTallies nD τ sig Unit := O₁ c + tallyAt (barCell (prv c)) () 1

def L (g : GSem nD τ sig) : Finset Unit := if g.1.2 = .tc then {()} else ∅
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (nxt c) ∨ g = barCell (nxt c) ∨ g = barCell (prv c) := by
  unfold O₀ O₁ at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by rw [Finset.mem_singleton.mp hp]; dsimp only [lv]; rw [if_neg (fun h => by cases h), if_neg hq])
      (fun g u hg => by
        rcases O₀_pos hg with rfl | rfl | rfl
        · dsimp only [lv]; rw [if_neg recv_ne_bar, if_pos rfl]; decide
        · dsimp only [lv]; rw [if_pos rfl]; decide
        · dsimp only [lv]; rw [if_pos rfl]; decide)
  · rw [MayWait_zero]; iintro -; iempintro

omit [FloatOps F] in
theorem mayWait_bar (c : Dev nD) :
    (levAts L lv : sProp 𝕄) ⊢ MayWait (c : Thread nD τ) (.reg barS) () (tallyAt (recvCell (nxt c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (nxt c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (nxt c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants a device's body opens: its own three, both neighbours' entry cells, the next device's receive cell. -/
def invs (K : Dev nD × Fin 3 → ℕ) (c : Dev nD) : sProp 𝕄 :=
  iprop(cellInv ER (ringRd m) (K (c, 0)) (barCell c) ∗ cellInv ER (ringRd m) (K (c, 1)) (sendCell c) ∗ cellInv ER (ringRd m) (K (c, 2)) (recvCell c)
    ∗ cellInv ER (ringRd m) (K (nxt c, 0)) (barCell (nxt c)) ∗ cellInv ER (ringRd m) (K (prv c, 0)) (barCell (prv c))
    ∗ cellInv ER (ringRd m) (K (nxt c, 2)) (recvCell (nxt c)))

instance invs_persistent (K : Dev nD × Fin 3 → ℕ) (c : Dev nD) : BI.Persistent (invs m K c) := by unfold invs; infer_instance

/-- The ghost state a device starts from: the invariants, its positions at round 0 of its three cells, the rounds
    reached, and the four duty tokens it pays with: the previous device's entry duty `true`, the next device's entry
    duty `false`, the next device's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (nxt c)) 0 ∗ reached ER (barCell (prv c)) 0 ∗ reached ER (recvCell (nxt c)) 0 ∗ reached ER (sendCell c) 0 ∗ reached ER (recvCell c) 0
    ∗ dutyTok ER (barCell (prv c)) 0 true ∗ dutyTok ER (barCell (nxt c)) 0 false ∗ dutyTok ER (recvCell (nxt c)) 0 false ∗ dutyTok ER (sendCell c) 0 false)

def start (c : Dev nD) : sProp 𝕄 :=
  iprop((∃ K, ghost m K c) ∗ cred (tallyAt (barCell c) () 2) ∗ cred (tallyAt (recvCell c) () N) ∗ levAts L lv)

def Φ₀ (c : Dev nD) : sProp 𝕄 := iprop(start m c ∗ (∃ f, hPts c f) ∗ (∃ f, sPts c f))
def Φ₁ (c : Dev nD) : sProp 𝕄 := iprop((∃ f, hPts (F := F) c f) ∗ (∃ f, sPts (F := F) c f) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => kstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdealProof

end
-- ==== Proof.KernelIdealViews.lean ====
import proofs.«900792_g7700000000000793_dist_gconv1d_seqshard_i_b4_s1024_c512_v7x_i32_f32_1_alg».proof.Proof.KernelIdealProto
import Idealize.ShloMosaic.Lib.Pipeline.Value
import Idealize.ShloMosaic.Lib.ValueIdx

/-!
# The two stores into the result block, read at an index

The store of positions `3 … 1023` followed by the store of positions `0 … 2` leaves nothing of what the buffer held.
-/

noncomputable section

namespace Cert.KernelIdealProof

open Idealize.ShloMosaic Idealize.ShloMosaic.ValueIdx
open Cert.KernelIdeal Cert.KernelIdeal.Gen

variable {F : FTy → Type} [FloatOps F]

/-- The view of positions `0 … 2` places `(b, r, l)` at `(b, r, l)`. -/
private theorem emb_lo (b : Fin 4) (r : Fin 3) (l : Fin 512) :
    ((oM : Memref sig .tc .vmem S4x1024x512 .f32).access rLo : View sig .tc _ _ _).emb (ix3 b r l)
      = (ix3 b ⟨r.val, by omega⟩ l : S4x1024x512.Idx) := by
  funext a
  apply Fin.ext
  show ((rLo.emb (ix3 b r l)) a : ℕ) = _
  rw [Rect.emb_apply]
  match a with
  | ⟨0, _⟩ => simp
  | ⟨1, _⟩ => simp
  | ⟨2, _⟩ => simp

/-- The view of positions `3 … 1023` places `(b, r, l)` at `(b, r + 3, l)`. -/
private theorem emb_hi (b : Fin 4) (r : Fin 1021) (l : Fin 512) :
    ((oM : Memref sig .tc .vmem S4x1024x512 .f32).access rHi : View sig .tc _ _ _).emb (ix3 b r l)
      = (ix3 b ⟨r.val + 3, by omega⟩ l : S4x1024x512.Idx) := by
  funext a
  apply Fin.ext
  show ((rHi.emb (ix3 b r l)) a : ℕ) = _
  rw [Rect.emb_apply]
  match a with
  | ⟨0, _⟩ => simp
  | ⟨1, _⟩ => show (3 : ℕ) + 1 * r.val = r.val + 3; omega
  | ⟨2, _⟩ => simp

/-- A position `r + 3` is none of the positions `0 … 2`: on the sequence axis every element under that view has a
    coordinate below `3`. -/
private theorem not_mem_lo (b : Fin 4) (r : Fin 1021) (l : Fin 512) :
    (ix3 b ⟨r.val + 3, by omega⟩ l : S4x1024x512.Idx)
      ∉ ((oM : Memref sig .tc .vmem S4x1024x512 .f32).access rLo : View sig .tc _ _ _).setOn Finset.univ := by
  intro h
  obtain ⟨y, hy⟩ := View.exists_emb_of_mem_set _ h
  have h1 : ((rLo.emb y) ⟨1, by decide⟩ : ℕ) = r.val + 3 :=
    congrArg (fun i : S4x1024x512.Idx => ((i ⟨1, by decide⟩ : Fin _) : ℕ)) hy
  rw [Rect.emb_apply] at h1
  have h2 := (y ⟨1, by decide⟩).isLt
  change _ < 3 at h2
  change (0 : ℕ) + 1 * _ = _ at h1
  omega

/-- Position `r < 3` of the result is what the later store wrote. -/
theorem glue_lo (o : (cc0_stg2_0 : Ref sig .tc).ty.Contents (Elt F)) (pHi : FVec F S4x1021x512 .f32) (pLo : FVec F S4x3x512 .f32)
    (b : Fin 4) (r : Fin 3) (l : Fin 512) :
    glue o pHi pLo (ix3 b ⟨r.val, by omega⟩ l) = pLo (ix3 b r l) := by
  unfold glue
  rw [← emb_lo b r l, View.write_emb_of_mem _ _ (Finset.mem_univ _)]
  rfl

/-- Position `r + 3` of the result is entry `r` of what the earlier store wrote. -/
theorem glue_hi (o : (cc0_stg2_0 : Ref sig .tc).ty.Contents (Elt F)) (pHi : FVec F S4x1021x512 .f32) (pLo : FVec F S4x3x512 .f32)
    (b : Fin 4) (r : Fin 1021) (l : Fin 512) :
    glue o pHi pLo (ix3 b ⟨r.val + 3, by omega⟩ l) = pHi (ix3 b r l) := by
  unfold glue
  rw [View.write_of_not_mem _ _ _ (not_mem_lo b r l), ← emb_hi b r l,
    View.write_emb_of_mem _ _ (Finset.mem_univ _)]
  rfl

/-- The two stores cover the buffer. -/
theorem glue_indep (o o' : (cc0_stg2_0 : Ref sig .tc).ty.Contents (Elt F)) (pHi : FVec F S4x1021x512 .f32) (pLo : FVec F S4x3x512 .f32) :
    glue o pHi pLo = glue o' pHi pLo := by
  funext i
  obtain ⟨b, n, l, rfl⟩ : ∃ (b : Fin 4) (n : Fin 1024) (l : Fin 512), i = ix3 b n l :=
    ⟨_, _, _, eq_ix3 (n0 := 4) (n1 := 1024) (n2 := 512) i⟩
  by_cases h : n.val < 3
  · have e : n = ⟨(⟨n.val, h⟩ : Fin 3).val, by omega⟩ := rfl
    rw [e, glue_lo, glue_lo]
  · have e : n = ⟨(⟨n.val - 3, by omega⟩ : Fin 1021).val + 3, by omega⟩ := Fin.ext (by simp; omega)
    rw [e, glue_hi, glue_hi]

end Cert.KernelIdealProof

end
-- ==== Proof.KernelIdealSteps.lean ====
import proofs.«900792_g7700000000000793_dist_gconv1d_seqshard_i_b4_s1024_c512_v7x_i32_f32_1_alg».proof.Proof.KernelIdealProto
import proofs.«900792_g7700000000000793_dist_gconv1d_seqshard_i_b4_s1024_c512_v7x_i32_f32_1_alg».proof.Proof.KernelIdealViews

/-!
# The pieces one device's body is stepped with
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The one device-dependent branch: only device 0 clears its landing buffer -/

/-- The branch condition as the body computes it from the device's id. -/
def isFirst (c : Dev nD) : BitVec 1 :=
  Scalar.cmpi .ne (Scalar.extui (Scalar.cmpi .eq (Scalar.remsi (Scalar.divsi (Dev.word c) 1#32) 32#32) 0#32)) 0#32

theorem isFirst_zero : isFirst (0 : Dev nD) = 1#1 := by decide
theorem isFirst_pos : ∀ c : Dev nD, c.val ≠ 0 → isFirst c = 0#1 := by decide

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 2) ∗ cred (tallyAt (recvCell c) () N) ∗ levAts L lv ∗ (∃ f, hPts c f) ∗ (∃ f, sPts c f))
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ c ∗ (dats m 0 c).owesAt () t₀.succ ∗ stg c cc0_stg0_0 (xstg m c) ∗ stg c cc0_stg1_0 (kstg m c) ∗ stg c cc0_stg2_0 (outAt m c))

/-- The schedule's tables at the cells this body touches, with the ring already resolved. -/
theorem payload_bar_prv (c : Dev nD) :
    (ringRd (F := F) m).payload (barCell (prv c)) 0 true
      = iprop((∃ f, ((hM : Memref sig .tc .vmem S4x3x512 .f32).view.loc (c : Thread nD τ) ↦[(hM : Memref sig .tc .vmem S4x3x512 .f32).view.set]{fullShare} f))
          ∗ reached ER (recvCell c) 0) := by
  rw [payload_bar_true]; unfold barPay hPts; rw [nxt_prv]
theorem payload_bar_own (c : Dev nD) :
    (ringRd (F := F) m).payload (barCell c) 0 true
      = iprop((∃ f, ((hM : Memref sig .tc .vmem S4x3x512 .f32).view.loc (nxt c : Thread nD τ) ↦[(hM : Memref sig .tc .vmem S4x3x512 .f32).view.set]{fullShare} f))
          ∗ reached ER (recvCell (nxt c)) 0) := by
  rw [payload_bar_true]; unfold barPay hPts; rfl
theorem payload_send_pt (c : Dev nD) (d : Bool) :
    (ringRd (F := F) m).payload (sendCell c) 0 d
      = ((sM : Memref sig .tc .vmem S4x3x512 .f32).view.loc (c : Thread nD τ) ↦[(sM : Memref sig .tc .vmem S4x3x512 .f32).view.set]{fullShare} sendC (xstg m c)) := by
  rw [payload_send]; rfl
theorem payload_recv_pt (c : Dev nD) (d : Bool) :
    (ringRd (F := F) m).payload (recvCell c) 0 d
      = ((hM : Memref sig .tc .vmem S4x3x512 .f32).view.loc (c : Thread nD τ) ↦[(hM : Memref sig .tc .vmem S4x3x512 .f32).view.set]{fullShare} landed m c) := by
  rw [payload_recv]; rfl
theorem payload_recv_nxt (c : Dev nD) (d : Bool) :
    (ringRd (F := F) m).payload (recvCell (nxt c)) 0 d
      = ((hM : Memref sig .tc .vmem S4x3x512 .f32).view.loc (nxt c : Thread nD τ) ↦[(hM : Memref sig .tc .vmem S4x3x512 .f32).view.set]{fullShare} sendC (xstg m c)) := by
  rw [payload_recv]; unfold recvPay hPts landed; rw [prv_nxt]

omit [FloatOps F] in
theorem hz3 : (![0, 0, 0] : Fin 3 → Nat) = fun _ => 0 := funext fun a => by fin_cases a <;> rfl
omit [FloatOps F] in
theorem hz2 : (![0, 0] : Fin 2 → Nat) = fun _ => 0 := funext fun a => by fin_cases a <;> rfl

/-- The copy of the outgoing buffer into the next device's landing buffer: it pays the sender's own send duty with the
    outgoing buffer (to come back at the send wait) and the next device's receive duty with the landing buffer holding
    what was sent. -/
theorem send_step (c n : Dev nD) (hn : n = nxt c)
    {hsc : (hM : Memref sig (Dev.tc n : Thread nD τ).2.kind .vmem S4x3x512 .f32).view.ref.isScScratch = false}
    {hsrc : (sM : Memref sig .tc .vmem S4x3x512 .f32).view.WordExact} {hdst : (hM : Memref sig .tc .vmem S4x3x512 .f32).view.WordExact}
    {hsem : DmaTarget.Typed .vmem (.dma recvS.sem) (.remote (Dev.tc n : Thread nD τ) (hM : Memref sig .tc .vmem S4x3x512 .f32) (.dma sendS.sem) hsc)}
    {α : Type} {Q : α → sProp 𝕄} {k : PUnit → Prog (TpuEff nD τ sig (Elt F) Λ₀ .tc) α}
    (fn : Buf (Elt F) ((hM : Memref sig .tc .vmem S4x3x512 .f32).view.loc (nxt c : Thread nD τ))) (W : Waits sig Unit) :
    iprop(cellInv ER (ringRd m) (K (c, 1)) (sendCell c) ∗ cellInv ER (ringRd m) (K (nxt c, 2)) (recvCell (nxt c))
        ∗ ((sM : Memref sig .tc .vmem S4x3x512 .f32).view.loc (c : Thread nD τ) ↦[(sM : Memref sig .tc .vmem S4x3x512 .f32).view.set]{fullShare} sendC (xstg m c))
        ∗ ((hM : Memref sig .tc .vmem S4x3x512 .f32).view.loc (nxt c : Thread nD τ) ↦[(hM : Memref sig .tc .vmem S4x3x512 .f32).view.set]{fullShare} fn)
        ∗ owes (c : Thread nD τ) (tallyAt (recvCell (nxt c)) () N) W
        ∗ dutyTok ER (sendCell c) 0 false ∗ reached ER (sendCell c) 0
        ∗ dutyTok ER (recvCell (nxt c)) 0 false ∗ reached ER (recvCell (nxt c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) hM (.dma sendS.sem) hsc) (.dma recvS.sem) hsrc hdst hsem) k) Q) := by
  subst hn
  exact Rounds.wp_send_pointsTo 𝒱₀ ER (ringRd m) (c : Thread nD τ) none (κ₁ := K (c, 1)) (κ₂ := K (nxt c, 2))
    (r₁ := 0) (r₂ := 0) (d₁ := false) (d₂ := false) (fd := fn)
    (by rw [duties_send]; exact Finset.mem_singleton_self _) (by rw [duties_recv]; exact Finset.mem_singleton_self _)
    () () N rfl (amount_send m c false) (amount_recv m (nxt c) false) 0 (by rw [zero_add]) (W := W)
    (by rw [payload_send]; exact BI.Entails.refl _)
    (by rw [payload_recv]; unfold recvPay hPts; rw [landed_eq, landed, prv_nxt])

/-! ## Reading whole buffers back -/

omit [FloatOps F] in
theorem read_x (f : (cc0_stg0_0 : Ref sig .tc).ty.Contents (Elt F)) :
    (xM : Memref sig .tc .vmem S4x1024x512 .f32).view.readAt (Elt F) rX.toLoadRect f = f :=
  Memref.readAt_unit_zero (Elt F) cc0_stg0_0 hz3 _ f
omit [FloatOps F] in
theorem read_k (f : (cc0_stg1_0 : Ref sig .tc).ty.Contents (Elt F)) :
    (kM : Memref sig .tc .vmem S4x512 .f32).view.readAt (Elt F) rK.toLoadRect f = f :=
  Memref.readAt_unit_zero (Elt F) cc0_stg1_0 hz2 _ f
omit [FloatOps F] in
theorem read_h (f : (cc0_scratch0 : Ref sig .tc).ty.Contents (Elt F)) :
    (hM : Memref sig .tc .vmem S4x3x512 .f32).view.readAt (Elt F) rH.toLoadRect f = f :=
  Memref.readAt_unit_zero (Elt F) cc0_scratch0 hz3 _ f
/-- A load of the whole landing buffer right after a store of the whole buffer reads what was stored. -/
theorem readCov_h (w : FVec F S4x3x512 .f32) :
    (hM : Memref sig .tc .vmem S4x3x512 .f32).view.readCov [(⟨rH, w⟩ : View.Piece (Elt F) S4x3x512 .f32)] rH.toLoadRect = w :=
  View.readCov_unit_zero (Val := Elt F) (S := S4x3x512) (e := .f32) (hM : Memref sig .tc .vmem S4x3x512 .f32).view (off := ![0, 0, 0]) hz3 inb_S4x3x512_S4x3x512_0_0_0 w
omit [FloatOps F] in
/-- The outgoing buffer after its one whole store. -/
theorem writes_s (fs : (cc0_scratch1 : Ref sig .tc).ty.Contents (Elt F)) (w : FVec F S4x3x512 .f32) :
    (sM : Memref sig .tc .vmem S4x3x512 .f32).view.writes (Elt F) fs [⟨rH, w⟩] = w := by
  rw [View.writes_singleton]; exact Memref.write_access_unit_zero_univ (Elt F) cc0_scratch1 hz3 _ fs _
omit [FloatOps F] in
/-- The result's staging buffer after its two stores. -/
theorem writes_o (o : (cc0_stg2_0 : Ref sig .tc).ty.Contents (Elt F)) (pHi : FVec F S4x1021x512 .f32) (pLo : FVec F S4x3x512 .f32) :
    (oM : Memref sig .tc .vmem S4x1024x512 .f32).view.writes (Elt F) o [⟨rLo, pLo⟩, ⟨rHi, pHi⟩] = glue o pHi pLo := rfl

end Body

end Cert.KernelIdealProof

end
-- ==== Proof.KernelIdealBody.lean ====
import proofs.«900792_g7700000000000793_dist_gconv1d_seqshard_i_b4_s1024_c512_v7x_i32_f32_1_alg».proof.Proof.KernelIdealSteps

/-!
# One device's body, stepped once at a symbolic device
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (K : Dev nD × Fin 3 → ℕ)

theorem duties_bar2 (c : Dev nD) : (ringRd (F := F) m).duties (barCell c) 0 = {false, true} := by rw [duties_bar]; decide
attribute [local sl_rounds] duties_bar2 duties_send duties_recv amount_bar amount_send amount_recv expect_bar expect_send expect_recv
  payload_bar_prv payload_bar_own payload_bar_false payload_send_pt payload_recv_pt payload_recv_nxt
attribute [local sl_canon] dev1_eq dev2_eq dev3_eq
set_option maxHeartbeats 1600000 in
/-- The body from what a device holds at entry to what it holds at exit. The two entry signals, the wait for both
    neighbours, the copy to the next device and the two copy waits go by the cells' one-round schedule; only device 0 takes
    the branch that clears the landing buffer. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  unfold bodyPre ghost invs
  iintro ⟨⟨⟨⟨⟨#HIbar, #HIsnd, #HIrcv, #HIbarN, #HIbarP, #HIrcvN⟩, HatB, HatS, HatV, #HrBN, #HrBP, #HrVN, #HrS, #HrV, HtBP, HtBN, HtVN, HtS⟩, HcB, HcV, #Hlev, ⟨%fh, Hh⟩, ⟨%fs, Hs⟩⟩,
    Ho, ⟨%d0, %g0, %hg0, Hx⟩, ⟨%d1, %g1, %hg1, Hk⟩, ⟨%d2, %g2, %hg2, Hout⟩⟩, Hpost⟩
  have hx : g0 = xstg m c := by rw [hg0]; unfold Dat.before; rw [if_pos (fetch_0 t₀)]; rfl
  have hk : g1 = kstg m c := by rw [hg1]; unfold Dat.before; rw [if_pos (fetch_1 t₀)]; rfl
  subst hx hk
  clear hg0 hg1 hg2
  unfold Dat.owesAt Pipeline.owesWithin
  icases Ho with ⟨%W, %hW, HO⟩
  rw [show (dats m 0 c).owed t₀.castSucc = O₀ c from rfl]
  unfold O₀ O₁ hPts sPts
  have hmw := mayWait_bar (F := F) c
  -- which way the one branch goes, and what the landing buffer holds after it
  have key : (isFirst c = 1#1 ∧ haloC m c = k0_pay6 (F := F)) ∨ (¬ isFirst c = 1#1 ∧ haloC m c = landed m c) := by
    by_cases h0 : c.val = 0
    · left; exact ⟨by have : c = 0 := Fin.ext h0; subst this; exact isFirst_zero, by unfold haloC; rw [if_pos h0]⟩
    · right; exact ⟨by rw [isFirst_pos c h0]; decide, by unfold haloC; rw [if_neg h0]⟩
  ihave Hx := (Entails.of_eq (show ((c : Thread nD τ).loc cc0_stg0_0 ↦{fullShare} xstg m c : sProp 𝕄)
      = ((xM : Memref sig .tc .vmem S4x1024x512 .f32).view.loc (c : Thread nD τ) ↦{fullShare} xstg m c) from rfl)) $$ Hx
  ihave Hk := (Entails.of_eq (show ((c : Thread nD τ).loc cc0_stg1_0 ↦{fullShare} kstg m c : sProp 𝕄)
      = ((kM : Memref sig .tc .vmem S4x512 .f32).view.loc (c : Thread nD τ) ↦{fullShare} kstg m c) from rfl)) $$ Hk
  ihave Hout := (Entails.of_eq (show ((c : Thread nD τ).loc cc0_stg2_0 ↦{fullShare} g2 : sProp 𝕄)
      = ((oM : Memref sig .tc .vmem S4x1024x512 .f32).view.loc (c : Thread nD τ) ↦{fullShare} g2) from rfl)) $$ Hout
  rcases key with ⟨hcond, hhalo⟩ | ⟨hcond, hhalo⟩ <;> (
  sl_exec
  -- the first signal, to the device before: it hands over this device's landing buffer
  iapply (Rounds.wp_signal 𝒱₀ ER (ringRd m) (c : Thread nD τ) none (dst := (prv c : Thread nD τ)) (κ := K (prv c, 0))
      (d := true) (by rw [duties_bar]; exact Finset.mem_univ _) ((amount_bar m (prv c) true).trans (by decide)) ()
      (tallyAt (recvCell (nxt c)) () N + tallyAt (barCell (nxt c)) () 1) rfl) $$ [HO HtBP Hh]
  · isplitr; · iexact HIbarP
    isplitl [HO]; · iexact HO
    isplitl [HtBP]; · iexact HtBP
    isplitl [Hh]
    · rw [payload_bar_prv]
      isplitl [Hh]; · iexists fh; iexact Hh
      iexact HrV
    · iexact HrBP
  iintro HO
  -- the second signal, the wait for both neighbours, the fill of the outgoing buffer
  sl_exec
  rw [writes_s]
  -- the copy into the next device's landing buffer
  iapply (send_step m K c _ (dev3_eq c) HatB_pay1_v _) $$ [Hs HatB_pay1 HO HtS HtVN]
  · isplitr; · iexact HIsnd
    isplitr; · iexact HIrcvN
    isplitl [Hs]; · unfold sendC tailOf; iexact Hs
    isplitl [HatB_pay1]; · iexact HatB_pay1
    isplitl [HO]; · iexact HO
    isplitl [HtS]; · iexact HtS
    isplitr; · iexact HrS
    isplitl [HtVN]; · iexact HtVN
    iexact HrVN
  iintro ⟨HcS, HO⟩
  -- positions 3 … 1023, the landing, the branch, positions 0 … 2, the send wait
  sl_exec (disch := first | exact hcond)
  sl_unfold_words
  -- the two own cells close: their counters at zero are the device's again
  imod (Rounds.cell_close ER (ringRd m) (Set.mem_univ (K (c, 1))) (fun h => h) (R := 0 + 1) (duties_later m (sendCell c))) $$ [HatS] with HzS
  · isplitr; · iexact HIsnd
    iexact HatS
  imod (Rounds.cell_close ER (ringRd m) (Set.mem_univ (K (c, 2))) (fun h => h) (R := 0 + 1) (duties_later m (recvCell c))) $$ [HatV] with HzV
  · isplitr; · iexact HIrcv
    iexact HatV
  sl_step
  iapply Hpost
  unfold bodyPost Φ₁ Dat.owesAt Pipeline.owesWithin hPts sPts
  rw [show (dats m 0 c).owed t₀.succ = 0 from rfl]
  isplitl [HatV_pay1 HatS_pay1 HzS HzV]
  · isplitl [HatV_pay1]; · iexists _; iexact HatV_pay1
    isplitl [HatS_pay1]; · iexists _; iexact HatS_pay1
    isplitl [HzS]; · iexact HzS
    iexact HzV
  isplitl [HO]
  · iexists _; isplitr; swap; (· iexact HO); ipureintro; exact fun _ _ => Or.inl trivial
  isplitl [Hx]
  · iexists _; isplitr; swap; (· iexact Hx); ipureintro; rfl
  isplitl [Hk]
  · iexists _; isplitr; swap; (· iexact Hk); ipureintro; rfl
  iexists _; isplitr; swap; (· iexact Hout); ipureintro
  rw [read_x, read_k]
  first | rw [readCov_h] | rw [read_h]
  rw [← hhalo]
  unfold outAt outHi outLo
  exact (writes_o g2 _ _).trans (glue_indep g2 (xstg m c) _ _))

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

set_option maxRecDepth 4000 in
/-- The pipeline's body obligation on a device: the invariant and the three staging buffers taken apart, the body
    run, its post handed back. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost m c)
  unfold bodyPre' Φ₀ start
  iintro ⟨⟨⟨⟨%K, Hg⟩, Hrest⟩, Hh, Hs⟩, Ho, Hx, Hk, Hout⟩
  iapply (sound_body m K c fun _ => bodyPost m c)
  unfold bodyPre
  isplitr []
  · isplitl [Hg Hrest Hh Hs]
    · isplitl [Hg]; · iexact Hg
      icases Hrest with ⟨H1, H2, H3⟩
      isplitl [H1]; · iexact H1
      isplitl [H2]; · iexact H2
      isplitl [H3]; · iexact H3
      isplitl [Hh]; · iexact Hh
      iexact Hs
    isplitl [Ho]; · iexact Ho
    isplitl [Hx]; · iexact Hx
    isplitl [Hk]; · iexact Hk
    iexact Hout
  · iintro H; iexact H

end Body

end Cert.KernelIdealProof

end
-- ==== Proof.KernelIdealLaunch.lean ====
import proofs.«900792_g7700000000000793_dist_gconv1d_seqshard_i_b4_s1024_c512_v7x_i32_f32_1_alg».proof.Proof.KernelIdealProto

/-!
# The launch: the ring's ghost state dealt to the thirty-two devices, and the credit each starts with
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- A device's own cells' duty tokens as minted: its entry cell's two, its send cell's and its receive cell's one. -/
abbrev tokOf (cj : Dev nD × Fin 4) : GSem nD τ sig × ℕ × Bool := match cj.2 with
  | 0 => (barCell cj.1, 0, false) | 1 => (barCell cj.1, 0, true) | 2 => (sendCell cj.1, 0, false) | 3 => (recvCell cj.1, 0, false)
theorem tokOf_injective : Function.Injective (tokOf : Dev nD × Fin 4 → GSem nD τ sig × ℕ × Bool) := by
  rintro ⟨c, j⟩ ⟨c', j'⟩ h
  have h1 : c = c' := by
    have := congrArg (fun x : GSem nD τ sig × ℕ × Bool => x.1.1.1) h
    fin_cases j <;> fin_cases j' <;> exact this
  subst h1
  have : j = j' := by
    fin_cases j <;> fin_cases j' <;> first | rfl | exact absurd (congrArg (fun x : GSem nD τ sig × ℕ × Bool => (x.1.2, x.2.2)) h) (fun h' => by cases h')
  subst this; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of a device's own cells. -/
def toks (c : Dev nD) : sProp 𝕄 :=
  iprop(dutyTok ER (barCell c) 0 false ∗ dutyTok ER (barCell c) 0 true ∗ dutyTok ER (sendCell c) 0 false ∗ dutyTok ER (recvCell c) 0 false)

/-- What the launch element deals a device. -/
def G (c : Dev nD) : sProp 𝕄 :=
  iprop((bigSep Finset.univ fun k : Fin 3 => roundState ER (ringRd m) (kcell (c, k)) 0)
    ∗ (bigSep Finset.univ fun k : Fin 3 => iprop(atPos ER (kcell (c, k)) 0 ∅ 0 ∗ reached ER (kcell (c, k)) 0)) ∗ toks c)

/-- What the step over all devices makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 3 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin4]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- The entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (ringRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (ringRd m) (K ck) (kcell ck) : sProp 𝕄)) ⊢ cellInv ER (ringRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with a device: its positions, and the tokens of the duties IT pays. -/
def payToks (c : Dev nD) : sProp 𝕄 :=
  iprop(dutyTok ER (barCell (nxt c)) 0 false ∗ dutyTok ER (barCell (prv c)) 0 true ∗ dutyTok ER (recvCell (nxt c)) 0 false ∗ dutyTok ER (sendCell c) 0 false)
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBN, HtBP, HtVN, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (nxt c, 0)); iexact HI
    isplitr; · iapply (inv_at m K (prv c, 0)); iexact HI
    iapply (inv_at m K (nxt c, 2)); iexact HI
  isplitl [HaB]; · iexact HaB
  isplitl [HaS]; · iexact HaS
  isplitl [HaV]; · iexact HaV
  isplitr; · iapply (reached_at (F := F) (nxt c, 0)); iexact HR
  isplitr; · iapply (reached_at (F := F) (prv c, 0)); iexact HR
  isplitr; · iapply (reached_at (F := F) (nxt c, 2)); iexact HR
  isplitr; · iapply (reached_at (F := F) (c, 1)); iexact HR
  isplitr; · iapply (reached_at (F := F) (c, 2)); iexact HR
  isplitl [HtBP]; · iexact HtBP
  isplitl [HtBN]; · iexact HtBN
  isplitl [HtVN]; · iexact HtVN
  iexact HtS

omit [FloatOps F] in
/-- The tokens dealt around the ring: an entry cell's `false` token one device down (to the device before), its
    `true` token one device up, the receive token one device down. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (recvCell c) 0 false : sProp 𝕄))]
  iintro ⟨H1, H2, H3, H4⟩
  isplitl [H1]; · iexact H1
  isplitl [H2]; · iexact H2
  isplitl [H4]; · iexact H4
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (ringRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The step over all devices at once: their own and their unscoped semaphores. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The credit a device starts with -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s entry cell: a unit if `c` comes after `d`, a unit if `c` comes before `d`. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, tallyAt_ne_cell (fun h => recv_ne_bar (congrArg Prod.snd h).symm),
    tallyAt_apply, tallyAt_apply, Finsupp.zero_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

omit [FloatOps F] in
theorem owed_recv (d c : Dev nD) : O₀ d (recvCell c) () = if d = prv c then N else 0 := by
  unfold O₀ O₁
  rw [Pi.add_apply, Finsupp.add_apply, Pi.add_apply, Finsupp.add_apply, tallyAt_apply,
    tallyAt_ne_cell (fun h => recv_ne_bar (congrArg Prod.snd h)), tallyAt_ne_cell (fun h => recv_ne_bar (congrArg Prod.snd h)), Finsupp.zero_apply, Nat.add_zero, Nat.add_zero]
  by_cases h : d = prv c
  · subst h; rw [nxt_prv, if_pos ⟨rfl, rfl⟩, if_pos rfl]
  · rw [if_neg (fun ⟨h1, _⟩ => h (by rw [← prv_nxt d]; exact congrArg prv (recv_eq_iff.mp h1).symm)), if_neg h]

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (prv c) fun _ => N,
    if_pos (Finset.mem_univ _)]

omit [FloatOps F] in
theorem creds (c : Dev nD) :
    (Pipeline.launchCred O₀ c : sProp 𝕄) ⊢ iprop(cred (tallyAt (barCell c) () 2) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### What the launch theorem asks at each device -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩, ⟨%g, Hq⟩⟩
  isplitl [Hs]; · iexact Hs
  isplitl [Hr]
  · iexists f; rw [hPts_eq]; iexact Hr
  · iexists g; rw [sPts_eq]; iexact Hq

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f, Hr⟩, ⟨%g, Hq⟩, HzS, HzV⟩
  isplitr; · iempintro
  isplitl [HzS HzV]
  · isplitl [HzS] <;> iassumption
  isplitl [Hr]
  · iexists f; rw [← hPts_eq]; iexact Hr
  · iexists g; rw [← sPts_eq]; iexact Hq

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

end Cert.KernelIdealProof

end
-- ==== Proof.KernelIdealRun.lean ====
import proofs.«900792_g7700000000000793_dist_gconv1d_seqshard_i_b4_s1024_c512_v7x_i32_f32_1_alg».proof.Proof.KernelIdealBody
import proofs.«900792_g7700000000000793_dist_gconv1d_seqshard_i_b4_s1024_c512_v7x_i32_f32_1_alg».proof.Proof.KernelIdealLaunch
import Idealize.ShloMosaic.Lib.Pipeline.Value

/-!
# The run of the whole mesh: every device's final arrays
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The arrays after the run, as the pipeline's write-backs leave them. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of thirty-two devices, for any float values, from any memory with zero counters: every weakly
    fair execution of @main terminates, and every final state has each device's three arrays at the contents named. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

/-- The two argument arrays end holding what they held. -/
theorem finalA_x (c : Dev nD) : finalA m c (0 : Fin 3) = m ((c : Thread nD τ).loc main_arg0) :=
  (dats (F := F) m 0 c).arrAt_in (0 : Fin 3) rfl _
theorem finalA_k (c : Dev nD) : finalA m c (1 : Fin 3) = m ((c : Thread nD τ).loc main_arg1) :=
  (dats (F := F) m 0 c).arrAt_in (1 : Fin 3) rfl _

omit [FloatOps F] in
/-- The result's one block is the whole array: reading it reads the array, -/
theorem read_blk_o (c : Dev nD) (G : Buf (Elt F) ((cfg0.win (2 : Fin 3)).arr.view.loc (c : Thread nD τ))) :
    ((cfg0.win (2 : Fin 3)).blk t₀).view.read (Elt F) G = G :=
  Memref.read_access_unit_zero (Elt F) main_v1 (funext fun a => by fin_cases a <;> rfl) _ G

omit [FloatOps F] in
/-- an access through the rectangle of a buffer's own sizes at zero offsets goes through all its elements, -/
theorem set_access_unit_zero {κ : Kind} (b : Ref sig κ) {off : Fin b.ty.shape.rank → Nat} (h : off = fun _ => 0)
    (inb : ∀ a, off a + b.ty.shape.size a ≤ b.ty.shape.size a) :
    ((Memref.whole b).access (Rect.unit off b.ty.shape.size inb) : View sig κ _ _ _).set = Finset.univ := by
  subst h; exact Memref.set_access_whole b

omit [FloatOps F] in
/-- and so the block covers the array. -/
theorem set_blk_o : ((cfg0.win (2 : Fin 3)).blk t₀).view.set = Finset.univ :=
  set_access_unit_zero main_v1 (funext fun a => by fin_cases a <;> rfl) _

/-- The result array ends holding the device's result block: its one block is the whole array and is written back. -/
theorem finalA_o (c : Dev nD) : finalA m c (2 : Fin 3) = outAt m c :=
  (dats (F := F) m 0 c).arrAt_eq_of_cover (2 : Fin 3) (outAt m c)
    (fun t _ => by
      rw [fin_N t, read_blk_o (F := F) c]
      rfl)
    (fun i => ⟨t₀, rfl, by rw [set_blk_o]; exact Finset.mem_univ _⟩)

/-- The run with every device's result named and its arguments unchanged. -/
theorem run_vals : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨((h c (2 : Fin 3)).trans (finalA_o m c)), ((h c (0 : Fin 3)).trans (finalA_x m c)), ((h c (1 : Fin 3)).trans (finalA_k m c))⟩)
    (run_main m ρ)

end Cert.KernelIdealProof

end
-- ==== Proof.ConvSpec.lean ====
import Idealize.ShloMosaic.PureOps.Ideal
import Idealize.ShloMosaic.Lib.ValueIdx
import Idealize.ShloMosaic.Lib.Layout

/-!
# The causal four-tap convolution with SiLU, as plain formulas over the extended reals

Everything here is a function of indices; no program is imported. `wholeOut` is the result over the whole
sequence (three zeros stand before position 0); `hiSpec`, `loSpec` and `tailSpec` are what one device computes
from its block of 1024 positions, the taps, and the three positions that stand before its block.
-/

noncomputable section

namespace Cert.ConvSpec

open Idealize.ShloMosaic Idealize.ShloMosaic.ValueIdx

/-- The whole sequence, one device's block, the taps, three positions, and positions `3 … 1023` of a block. -/
abbrev SW : Shape := ⟨3, ![4, 32768, 512]⟩
abbrev SB : Shape := ⟨3, ![4, 1024, 512]⟩
abbrev SK : Shape := ⟨2, ![4, 512]⟩
abbrev SH : Shape := ⟨3, ![4, 3, 512]⟩
abbrev SR : Shape := ⟨3, ![4, 1021, 512]⟩

/-- `a / (1 + e⁻ᵃ)`: SiLU as a quotient. -/
def siluQ (a : EReal) : EReal := Ideal.div a (1 + Ideal.exp (-a))
/-- `a · σ(a)`: SiLU as a product with the logistic function. -/
def siluP (a : EReal) : EReal := a * Ideal.logistic a

/-- Four taps against four consecutive positions, summed left to right. -/
def conv4 (p0 p1 p2 p3 k0 k1 k2 k3 : EReal) : EReal := ((p0 * k0 + p1 * k1) + p2 * k2) + p3 * k3

/-- Tap `t` on channel `l`. -/
def tap (K : SK.Idx → EReal) (t : Fin 4) (l : Fin 512) : EReal := K (ix2 t l)

/-- The sequence of `n` positions with three zeros put in front, at entry `j` (entries `0,1,2` are the zeros;
    past the end it is zero too, never read). -/
def padded {n : ℕ} (X : (⟨3, ![4, n, 512]⟩ : Shape).Idx → EReal) (b : Fin 4) (j : ℕ) (l : Fin 512) : EReal :=
  if h : 3 ≤ j ∧ j - 3 < n then X (ix3 b ⟨j - 3, h.2⟩ l) else 0

/-- The result over the whole sequence: position `n` from padded entries `n … n+3`. -/
def wholeOut (X : SW.Idx → EReal) (K : SK.Idx → EReal) : SW.Idx → EReal := fun i =>
  siluQ (conv4 (padded X (i 0) (i 1).val (i 2)) (padded X (i 0) ((i 1).val + 1) (i 2))
    (padded X (i 0) ((i 1).val + 2) (i 2)) (padded X (i 0) ((i 1).val + 3) (i 2))
    (tap K 0 (i 2)) (tap K 1 (i 2)) (tap K 2 (i 2)) (tap K 3 (i 2)))

/-- A block at position `j` (zero past its end, never read). -/
def seqAt (x : SB.Idx → EReal) (b : Fin 4) (j : ℕ) (l : Fin 512) : EReal :=
  if h : j < 1024 then x (ix3 b ⟨j, h⟩ l) else 0

/-- Three positions `h` followed by the block, at entry `j`. -/
def cat6 (h : SH.Idx → EReal) (x : SB.Idx → EReal) (b : Fin 4) (j : ℕ) (l : Fin 512) : EReal :=
  if hj : j < 3 then h (ix3 b ⟨j, hj⟩ l) else seqAt x b (j - 3) l

/-- Positions `3 … 1023` of a block's result: entry `r` is position `r + 3`, from block positions `r … r+3`. -/
def hiSpec (x : SB.Idx → EReal) (K : SK.Idx → EReal) : SR.Idx → EReal := fun i =>
  siluP (conv4 (seqAt x (i 0) (i 1).val (i 2)) (seqAt x (i 0) ((i 1).val + 1) (i 2))
    (seqAt x (i 0) ((i 1).val + 2) (i 2)) (seqAt x (i 0) ((i 1).val + 3) (i 2))
    (tap K 0 (i 2)) (tap K 1 (i 2)) (tap K 2 (i 2)) (tap K 3 (i 2)))

/-- Positions `0 … 2` of a block's result, from the three positions `h` before the block and the block's first three. -/
def loSpec (x : SB.Idx → EReal) (K : SK.Idx → EReal) (h : SH.Idx → EReal) : SH.Idx → EReal := fun i =>
  siluP (conv4 (cat6 h x (i 0) (i 1).val (i 2)) (cat6 h x (i 0) ((i 1).val + 1) (i 2))
    (cat6 h x (i 0) ((i 1).val + 2) (i 2)) (cat6 h x (i 0) ((i 1).val + 3) (i 2))
    (tap K 0 (i 2)) (tap K 1 (i 2)) (tap K 2 (i 2)) (tap K 3 (i 2)))

/-- The last three positions of a block. -/
def tailSpec (x : SB.Idx → EReal) : SH.Idx → EReal := fun i => seqAt x (i 0) (1021 + (i 1).val) (i 2)

/-- What stands before device `c`'s block: zeros for device 0, else the last three positions of the block before. -/
def haloSpec (xs : Fin 32 → SB.Idx → EReal) (c : Fin 32) : SH.Idx → EReal :=
  if c.val = 0 then fun _ => 0 else tailSpec (xs ⟨(c.val + 31) % 32, Nat.mod_lt _ (by decide)⟩)

/-- A block's result assembled from its two parts. -/
def blockOut (x : SB.Idx → EReal) (K : SK.Idx → EReal) (h : SH.Idx → EReal) : SB.Idx → EReal := fun i =>
  if hr : (i 1).val < 3 then loSpec x K h (ix3 (i 0) ⟨(i 1).val, hr⟩ (i 2))
  else hiSpec x K (ix3 (i 0) ⟨(i 1).val - 3, by have : (i 1).val < 1024 := (i 1).isLt; omega⟩ (i 2))

end Cert.ConvSpec

end
-- ==== Proof.KernelValue.lean ====
import proofs.«900792_g7700000000000793_dist_gconv1d_seqshard_i_b4_s1024_c512_v7x_i32_f32_1_alg».proof.Proof.KernelIdealProto
import proofs.«900792_g7700000000000793_dist_gconv1d_seqshard_i_b4_s1024_c512_v7x_i32_f32_1_alg».proof.Proof.ConvSpec
import Idealize.ShloMosaic.Lib.Pipeline.Value
import Idealize.ShloMosaic.Lib.ValueLayout
import Idealize.ShloMosaic.PureOps.Ideal.Laws

/-!
# What one device's arithmetic computes, at the exact instance

Over the extended reals a change of float format is the identity and a cast to the same shape changes nothing, so the
narrowed block and taps are the block and the taps. Each stored value is then read at one index `(b, r, l)`: a slice
along the sequence axis at offset `t` reads position `r + t`; a tap row (one row of the taps, flattened, given two unit
axes, repeated over batch and sequence) reads tap `t` on channel `l`; the concatenation of the three positions before
the block with the block's first three reads the former below entry 3 and the block three places back from there on.
What is left is the four products summed left to right and SiLU as the product with the logistic function, which is
the specification's formula with its bounds checks decided.
-/

noncomputable section

namespace Cert.KernelValue

open Idealize.ShloMosaic Idealize.ShloMosaic.ValueIdx
open Cert.KernelIdeal Cert.KernelIdeal.Gen Cert.KernelIdealProof Cert.ConvSpec

/-! ## Layout operations read at an index -/

/-- A unit-stride slice along the sequence axis of a rank-3 array, read at an index. -/
private theorem slice_seq {n m : ℕ} (t : ℕ) (v : (⟨3, ![4, n, 512]⟩ : Shape).Idx → EReal)
    (hs : (⟨3, ![4, n, 512]⟩ : Shape).Slices ![0, t, 0] ⟨3, ![4, m, 512]⟩)
    (b : Fin 4) (r : Fin m) (l : Fin 512) (hr : r.val + t < n) :
    extractStridedSlice ⟨3, ![4, m, 512]⟩ ![0, t, 0] v hs (ix3 b r l) = v (ix3 b ⟨r.val + t, hr⟩ l) := by
  refine extractStridedSlice_apply _ v hs _ _ fun a => ?_
  match a with
  | ⟨0, _⟩ => show b.val = 0 + b.val; omega
  | ⟨1, _⟩ => show r.val + t = t + r.val; omega
  | ⟨2, _⟩ => show l.val = 0 + l.val; omega

/-- A tap row: one row of the taps, flattened, given two unit axes and repeated over batch and sequence. -/
private theorem tap_row {m : ℕ} (t : ℕ) (kk : S4x512.Idx → EReal)
    (hs : S4x512.Slices ![t, 0] S1x512) (h1 : S1x512.ShapeCasts S512) (h2 : S512.ShapeCasts S1x1x512)
    (hb : S1x1x512.Broadcasts ⟨3, ![4, m, 512]⟩) (b : Fin 4) (r : Fin m) (l : Fin 512) (ht : t < 4) :
    broadcastTo ⟨3, ![4, m, 512]⟩ (shapeCast S1x1x512 (shapeCast S512 (extractStridedSlice S1x512 ![t, 0] kk hs) h1) h2) hb (ix3 b r l)
      = kk (ix2 ⟨t, ht⟩ l) := by
  refine (broadcastTo_apply _ hb (ix3 b r l) (ix3 (0 : Fin 1) (0 : Fin 1) l) fun a => ?_).trans ?_
  · match a with
    | ⟨0, _⟩ => rfl
    | ⟨1, _⟩ => rfl
    | ⟨2, _⟩ => rfl
  refine (shapeCast_apply _ h2 (ix3 (0 : Fin 1) (0 : Fin 1) l) (ix1 l) ?_).trans ?_
  · rw [Shape.rowMajor_val_one, Shape.rowMajor_val_three]; show l.val = (0 * 1 + 0) * 512 + l.val; omega
  refine (shapeCast_apply _ h1 (ix1 l) (ix2 (0 : Fin 1) l) ?_).trans ?_
  · rw [Shape.rowMajor_val_one, Shape.rowMajor_val_two]; show 0 * 512 + l.val = l.val; omega
  refine extractStridedSlice_apply _ kk hs _ _ fun a => ?_
  match a with
  | ⟨0, _⟩ => show t = t + 0; omega
  | ⟨1, _⟩ => show l.val = 0 + l.val; omega

/-- The logistic function of a vector, read at an index. -/
private theorem logistic_apply {s : Shape} {φ : FTy} (a : FVec Ideal s φ) (i : s.Idx) : logistic a i = Ideal.logistic (a i) := rfl

/-- A block position inside the block reads the block. -/
private theorem seqAt_lt (x : SB.Idx → EReal) (b : Fin 4) (j : ℕ) (l : Fin 512) (h : j < 1024) :
    seqAt x b j l = x (ix3 b ⟨j, h⟩ l) := dif_pos h

/-- At the exact instance a change of format is the identity, and so is a cast to the same shape. -/
private theorem pay3_eq (v : Vec Ideal S4x1024x512 .f32) : (k0_pay3 v : S4x1024x512.Idx → EReal) = v :=
  shapeCast_self v shapeCasts_S4x1024x512_S4x1024x512

private theorem pay4_eq (v : Vec Ideal S4x512 .f32) : (k0_pay4 v : S4x512.Idx → EReal) = v :=
  shapeCast_self v shapeCasts_S4x512_S4x512

/-- Positions 3 … 1023 over the narrowed block and taps. -/
private theorem pay5_eq (v : FVec Ideal S4x1024x512 .bf16) (kk : FVec Ideal S4x512 .bf16) :
    k0_pay5 v kk = hiSpec v kk := by
  funext i
  obtain ⟨b, r, l, rfl⟩ : ∃ (b : Fin 4) (r : Fin 1021) (l : Fin 512), i = ix3 b r l := ⟨i 0, i 1, i 2, eq_ix3 i⟩
  have hr := r.isLt
  show k0_pay5 v kk (ix3 b r l) = siluP (conv4 (seqAt v b r.val l) (seqAt v b (r.val + 1) l) (seqAt v b (r.val + 2) l)
    (seqAt v b (r.val + 3) l) (tap kk 0 l) (tap kk 1 l) (tap kk 2 l) (tap kk 3 l))
  rw [seqAt_lt v b r.val l (by omega), seqAt_lt v b (r.val + 1) l (by omega), seqAt_lt v b (r.val + 2) l (by omega),
    seqAt_lt v b (r.val + 3) l (by omega)]
  unfold k0_pay5
  simp only [extf_apply, mulf_apply, addf_apply, logistic_apply]
  rw [slice_seq 0 v _ b r l (by omega), slice_seq 1 v _ b r l (by omega), slice_seq 2 v _ b r l (by omega),
    slice_seq 3 v _ b r l (by omega), tap_row 0 kk _ _ _ _ b r l (by omega), tap_row 1 kk _ _ _ _ b r l (by omega),
    tap_row 2 kk _ _ _ _ b r l (by omega), tap_row 3 kk _ _ _ _ b r l (by omega)]
  rfl

/-- The last three positions of the block, read through the rectangle at sequence offset 1021. -/
private theorem tailOf_apply (x : (cc0_stg0_0 : Ref sig .tc).ty.Contents (Elt Ideal)) (b : Fin 4) (r : Fin 3) (l : Fin 512) :
    (tailOf (F := Ideal) x (ix3 b r l) : EReal) = x (ix3 b ⟨1021 + r.val, by have := r.isLt; omega⟩ l) := by
  show x _ = x _
  refine congrArg x (funext fun a => Fin.ext ?_)
  match a with
  | ⟨0, _⟩ => show 0 + 1 * b.val = b.val; omega
  | ⟨1, _⟩ => show 1021 + 1 * r.val = 1021 + r.val; omega
  | ⟨2, _⟩ => show 0 + 1 * l.val = l.val; omega

/-- The six entries "three positions before the block, then its first three": the concatenation along the sequence
    axis reads the first piece below 3 and the block, three places back, from 3 on. -/
private theorem pay7_apply (v : FVec Ideal S4x1024x512 .bf16) (h : Vec Ideal S4x3x512 .f32) (b : Fin 4) (j : ℕ) (hj : j < 6)
    (l : Fin 512) : (k0_pay7 v h (ix3 b ⟨j, hj⟩ l) : EReal) = cat6 h v b j l := by
  unfold k0_pay7 cat6
  by_cases h3 : j < 3
  · rw [dif_pos h3]
    refine (concatenate_pair_apply_left (1 : Fin S4x6x512.rank) _ _ concatenates_S4x3x512_S4x3x512_S4x6x512_d1
      (ix3 b ⟨j, hj⟩ l) rfl (ix3 b ⟨j, h3⟩ l) fun a => ?_).trans ?_
    · match a with
      | ⟨0, _⟩ => rfl
      | ⟨1, _⟩ => rfl
      | ⟨2, _⟩ => rfl
    · rfl
  · rw [dif_neg h3, seqAt_lt v b (j - 3) l (by omega)]
    refine (concatenate_pair_apply_right (1 : Fin S4x6x512.rank) _ _ concatenates_S4x3x512_S4x3x512_S4x6x512_d1
      (ix3 b ⟨j, hj⟩ l) rfl rfl (ix3 b ⟨j - 3, by omega⟩ l) (fun a ha => ?_) ?_).trans ?_
    · match a with
      | ⟨0, _⟩ => rfl
      | ⟨1, _⟩ => exact absurd rfl ha
      | ⟨2, _⟩ => rfl
    · show (j - 3) + 3 = j; omega
    · exact slice_seq 0 v _ b ⟨j - 3, by omega⟩ l (by show j - 3 + 0 < 1024; omega)

/-- The first product: entry `r` of the six against tap 0. -/
private theorem pay8_apply (v : FVec Ideal S4x1024x512 .bf16) (kk : FVec Ideal S4x512 .bf16) (h : Vec Ideal S4x3x512 .f32)
    (b : Fin 4) (r : Fin 3) (l : Fin 512) :
    (k0_pay8 v kk h (ix3 b r l) : EReal) = cat6 h v b r.val l * kk (ix2 0 l) := by
  have hr := r.isLt
  unfold k0_pay8
  simp only [mulf_apply]
  rw [slice_seq 0 (k0_pay7 v h) _ b r l (by omega), tap_row 0 kk _ _ _ _ b r l (by omega),
    pay7_apply v h b (r.val + 0) (by omega) l]
  rfl

/-- Entry `r + 1` of the six. -/
private theorem pay9_apply (v : FVec Ideal S4x1024x512 .bf16) (h : Vec Ideal S4x3x512 .f32) (b : Fin 4) (r : Fin 3) (l : Fin 512) :
    (k0_pay9 v h (ix3 b r l) : EReal) = cat6 h v b (r.val + 1) l := by
  have hr := r.isLt
  unfold k0_pay9
  rw [slice_seq 1 (k0_pay7 v h) _ b r l (by omega), pay7_apply v h b (r.val + 1) (by omega) l]

/-- Positions 0 … 2 from the six entries, the first product and the second entry. -/
private theorem pay1_apply (kk : FVec Ideal S4x512 .bf16) (c6 : FVec Ideal S4x6x512 .bf16) (p0 e1 : FVec Ideal S4x3x512 .bf16)
    (b : Fin 4) (r : Fin 3) (l : Fin 512) :
    (k0_pay1 kk c6 p0 e1 (ix3 b r l) : EReal)
      = siluP (((p0 (ix3 b r l) + e1 (ix3 b r l) * kk (ix2 1 l))
          + c6 (ix3 b ⟨r.val + 2, by have := r.isLt; omega⟩ l) * kk (ix2 2 l))
          + c6 (ix3 b ⟨r.val + 3, by have := r.isLt; omega⟩ l) * kk (ix2 3 l)) := by
  have hr := r.isLt
  unfold k0_pay1
  simp only [extf_apply, mulf_apply, addf_apply, logistic_apply]
  rw [slice_seq 2 c6 _ b r l (by omega), slice_seq 3 c6 _ b r l (by omega),
    tap_row 1 kk _ _ _ _ b r l (by omega), tap_row 2 kk _ _ _ _ b r l (by omega), tap_row 3 kk _ _ _ _ b r l (by omega)]
  rfl

/-- Positions 0 … 2 over the narrowed block and taps. -/
private theorem lo_eq (v : FVec Ideal S4x1024x512 .bf16) (kk : FVec Ideal S4x512 .bf16) (h : Vec Ideal S4x3x512 .f32) :
    k0_pay1 kk (k0_pay7 v h) (k0_pay8 v kk h) (k0_pay9 v h) = loSpec v kk h := by
  funext i
  obtain ⟨b, r, l, rfl⟩ : ∃ (b : Fin 4) (r : Fin 3) (l : Fin 512), i = ix3 b r l := ⟨i 0, i 1, i 2, eq_ix3 i⟩
  have hr := r.isLt
  rw [pay1_apply, pay8_apply, pay9_apply, pay7_apply v h b (r.val + 2) (by omega) l, pay7_apply v h b (r.val + 3) (by omega) l]
  rfl

/-! ## The four values -/

/-- Positions `3 … 1023`: four shifted slices of the block against the four taps, then SiLU as a product. -/
theorem outHi_eq (x : (cc0_stg0_0 : Ref sig .tc).ty.Contents (Elt Ideal)) (k : (cc0_stg1_0 : Ref sig .tc).ty.Contents (Elt Ideal)) :
    outHi (F := Ideal) x k = hiSpec x k := by
  unfold outHi
  rw [pay5_eq, pay3_eq, pay4_eq]

/-- Positions `0 … 2`: the same over the six entries "three positions before the block, then its first three". -/
theorem outLo_eq (x : (cc0_stg0_0 : Ref sig .tc).ty.Contents (Elt Ideal)) (k : (cc0_stg1_0 : Ref sig .tc).ty.Contents (Elt Ideal))
    (h : (cc0_scratch0 : Ref sig .tc).ty.Contents (Elt Ideal)) :
    outLo (F := Ideal) x k h = loSpec x k h := by
  unfold outLo
  rw [lo_eq, pay3_eq, pay4_eq]

/-- The outgoing buffer holds the block's last three positions. -/
theorem sendC_eq (x : (cc0_stg0_0 : Ref sig .tc).ty.Contents (Elt Ideal)) :
    sendC (F := Ideal) x = tailSpec x := by
  funext i
  obtain ⟨b, r, l, rfl⟩ : ∃ (b : Fin 4) (r : Fin 3) (l : Fin 512), i = ix3 b r l := ⟨i 0, i 1, i 2, eq_ix3 i⟩
  have hr := r.isLt
  show k0_pay2 (tailOf (F := Ideal) x) (ix3 b r l) = seqAt x b (1021 + r.val) l
  rw [seqAt_lt x b (1021 + r.val) l (by omega)]
  unfold k0_pay2
  simp only [shapeCast_self]
  exact tailOf_apply x b r l

/-- The zero fill is zero. -/
theorem zeros_eq : (k0_pay6 (F := Ideal) : FVec Ideal S4x3x512 .f32) = fun _ => (0 : EReal) := by
  unfold k0_pay6
  simp only [shapeCast_self]
  funext i
  exact Ideal.ofBits_zero_f32

end Cert.KernelValue

end
-- ==== Proof.Join.lean ====
import proofs.«900792_g7700000000000793_dist_gconv1d_seqshard_i_b4_s1024_c512_v7x_i32_f32_1_alg».proof.Proof.KernelIdealViews
import proofs.«900792_g7700000000000793_dist_gconv1d_seqshard_i_b4_s1024_c512_v7x_i32_f32_1_alg».proof.Proof.ConvSpec
import Idealize.ShloMosaic.Lib.Layout

/-!
# A device's block of the whole result is what the device computes from its block and its neighbour's tail
-/

noncomputable section

namespace Cert.Join

open Idealize.ShloMosaic Idealize.ShloMosaic.ValueIdx
open Cert.KernelIdeal Cert.KernelIdeal.Gen Cert.KernelIdealProof Cert.ConvSpec

/-- The exponential is nowhere negative: `0` at `⊥`, `⊤` at `⊤`, a positive real in between. -/
private theorem exp_nonneg (x : EReal) : 0 ≤ Ideal.exp x := by
  induction x using EReal.rec with
  | bot => exact le_of_eq Ideal.exp_bot.symm
  | coe r => rw [Ideal.exp_coe]; exact EReal.coe_nonneg.mpr (Real.exp_pos r).le
  | top => rw [Ideal.exp_top]; exact le_top

/-- So `1 + e⁻ᵃ ≥ 1 > 0`. -/
private theorem one_add_exp_ne_zero (a : EReal) : 1 + Ideal.exp (-a) ≠ 0 :=
  (lt_of_lt_of_le zero_lt_one (le_add_of_nonneg_right (exp_nonneg (-a)))).ne'

/-- Over the extended reals the product form and the quotient form of SiLU agree: `1 + e⁻ᵃ` is never zero. -/
theorem siluP_eq_siluQ (a : EReal) : siluP a = siluQ a := by
  unfold siluP siluQ Ideal.logistic Ideal.div
  simp only [if_neg (one_add_exp_ne_zero a), one_mul]

/-- Entry `(b, m, l)` of block `c` is entry `(b, 1024·c + m, l)` of the whole sequence. -/
private theorem idx_block (h : Layout.Tiles SB SW 1 32) (c : Fin 32) (b : Fin 4) (m : ℕ) (hm : m < 1024) (l : Fin 512) :
    h.idx c (ix3 b ⟨m, hm⟩ l) = (ix3 b ⟨c.val * 1024 + m, by omega⟩ l : SW.Idx) := by
  funext a
  match a with
  | ⟨0, _⟩ => exact Fin.ext rfl
  | ⟨1, _⟩ => exact Fin.ext rfl
  | ⟨2, _⟩ => exact Fin.ext rfl

/-- Block `c` of the whole result at `(b, m, l)`: padded entries `1024·c + m … 1024·c + m + 3` against the taps. -/
private theorem block_whole (h : Layout.Tiles SB SW 1 32) (X : SW.Idx → EReal) (K : SK.Idx → EReal) (c : Fin 32)
    (b : Fin 4) (m : ℕ) (hm : m < 1024) (l : Fin 512) :
    Layout.block SB SW 1 32 c (wholeOut X K) h (ix3 b ⟨m, hm⟩ l)
      = siluQ (conv4 (padded X b (c.val * 1024 + m) l) (padded X b (c.val * 1024 + m + 1) l)
          (padded X b (c.val * 1024 + m + 2) l) (padded X b (c.val * 1024 + m + 3) l)
          (tap K 0 l) (tap K 1 l) (tap K 2 l) (tap K 3 l)) := by
  rw [Layout.block_apply, idx_block]
  rfl

private theorem hiSpec_apply (x : SB.Idx → EReal) (K : SK.Idx → EReal) (b : Fin 4) (r : Fin 1021) (l : Fin 512) :
    hiSpec x K (ix3 b r l)
      = siluP (conv4 (seqAt x b r.val l) (seqAt x b (r.val + 1) l) (seqAt x b (r.val + 2) l) (seqAt x b (r.val + 3) l)
          (tap K 0 l) (tap K 1 l) (tap K 2 l) (tap K 3 l)) := rfl

private theorem loSpec_apply (x : SB.Idx → EReal) (K : SK.Idx → EReal) (hl : SH.Idx → EReal) (b : Fin 4) (r : Fin 3) (l : Fin 512) :
    loSpec x K hl (ix3 b r l)
      = siluP (conv4 (cat6 hl x b r.val l) (cat6 hl x b (r.val + 1) l) (cat6 hl x b (r.val + 2) l) (cat6 hl x b (r.val + 3) l)
          (tap K 0 l) (tap K 1 l) (tap K 2 l) (tap K 3 l)) := rfl

/-- Padded entry `1024·c + j + 3` of the whole sequence is position `j` of block `c`. -/
private theorem padded_block (h : Layout.Tiles SB SW 1 32) (X : SW.Idx → EReal) (c : Fin 32) (b : Fin 4) (l : Fin 512)
    (p j : ℕ) (hp : p = c.val * 1024 + j + 3) (hj : j < 1024) :
    padded X b p l = seqAt (Layout.block SB SW 1 32 c X h) b j l := by
  subst hp
  unfold padded seqAt
  rw [dif_pos (⟨by omega, by omega⟩ : 3 ≤ c.val * 1024 + j + 3 ∧ c.val * 1024 + j + 3 - 3 < 32768), dif_pos hj,
    Layout.block_apply, idx_block]
  exact congrArg (fun q : Fin 32768 => X (ix3 b q l))
    (Fin.ext (by show c.val * 1024 + j + 3 - 3 = c.val * 1024 + j; omega))

/-- Padded entry `1024·c + j`, `j < 1027`, is entry `j` of "what stands before block `c`, then block `c`":
    for `j ≥ 3` position `j - 3` of the block; for `j < 3` position `1021 + j` of block `c - 1`, or one of the
    three zeros in front of the sequence when `c = 0`. -/
private theorem padded_cat (h : Layout.Tiles SB SW 1 32) (X : SW.Idx → EReal) (c : Fin 32) (b : Fin 4) (l : Fin 512)
    (p j : ℕ) (hp : p = c.val * 1024 + j) (hj : j < 1027) :
    padded X b p l
      = cat6 (haloSpec (fun d => Layout.block SB SW 1 32 d X h) c) (Layout.block SB SW 1 32 c X h) b j l := by
  subst hp
  unfold cat6
  by_cases h3 : j < 3
  · rw [dif_pos h3]
    unfold haloSpec
    by_cases hc : c.val = 0
    · rw [if_pos hc]
      unfold padded
      rw [dif_neg (by omega)]
    · rw [if_neg hc]
      show _ = seqAt (Layout.block SB SW 1 32 ⟨(c.val + 31) % 32, _⟩ X h) b (1021 + j) l
      exact padded_block h X ⟨(c.val + 31) % 32, Nat.mod_lt _ (by decide)⟩ b l _ _
        (by show c.val * 1024 + j = (c.val + 31) % 32 * 1024 + (1021 + j) + 3; omega) (by omega)
  · rw [dif_neg h3]
    exact padded_block h X c b l _ _ (by omega) (by omega)

/-- Block `c` of the whole result, for `xs c` the blocks of the whole sequence: positions `3 … 1023` read only the
    block; positions `0 … 2` read the last three positions of the block before (zeros for block 0). -/
theorem block_join (X : SW.Idx → EReal) (K : SK.Idx → EReal) (c : Fin 32)
    (o : (cc0_stg2_0 : Ref sig .tc).ty.Contents (Elt Ideal)) :
    glue (F := Ideal) o (hiSpec (Layout.block SB SW 1 32 c X) K)
        (loSpec (Layout.block SB SW 1 32 c X) K (haloSpec (fun d => Layout.block SB SW 1 32 d X) c))
      = Layout.block SB SW 1 32 c (wholeOut X K) := by
  have h : Layout.Tiles SB SW 1 32 := by decide
  funext i
  obtain ⟨b, n, l, rfl⟩ : ∃ (b : Fin 4) (n : Fin 1024) (l : Fin 512), i = ix3 b n l :=
    ⟨_, _, _, eq_ix3 (n0 := 4) (n1 := 1024) (n2 := 512) i⟩
  by_cases hn : n.val < 3
  · obtain ⟨r, rfl⟩ : ∃ r : Fin 3, n = ⟨r.val, Nat.lt_of_lt_of_le r.isLt (by decide)⟩ := ⟨⟨n.val, hn⟩, rfl⟩
    have e0 := padded_cat h X c b l (c.val * 1024 + r.val) r.val rfl (by omega)
    have e1 := padded_cat h X c b l (c.val * 1024 + r.val + 1) (r.val + 1) (by omega) (by omega)
    have e2 := padded_cat h X c b l (c.val * 1024 + r.val + 2) (r.val + 2) (by omega) (by omega)
    have e3 := padded_cat h X c b l (c.val * 1024 + r.val + 3) (r.val + 3) (by omega) (by omega)
    rw [glue_lo, loSpec_apply, block_whole, siluP_eq_siluQ, e0, e1, e2, e3]
  · obtain ⟨r, rfl⟩ : ∃ r : Fin 1021, n = ⟨r.val + 3, Nat.add_lt_add_right r.isLt 3⟩ :=
      ⟨⟨n.val - 3, by omega⟩, Fin.ext (by simp; omega)⟩
    have e0 := padded_block h X c b l (c.val * 1024 + (r.val + 3)) r.val (by omega) (by omega)
    have e1 := padded_block h X c b l (c.val * 1024 + (r.val + 3) + 1) (r.val + 1) (by omega) (by omega)
    have e2 := padded_block h X c b l (c.val * 1024 + (r.val + 3) + 2) (r.val + 2) (by omega) (by omega)
    have e3 := padded_block h X c b l (c.val * 1024 + (r.val + 3) + 3) (r.val + 3) (by omega) (by omega)
    rw [glue_hi, hiSpec_apply, block_whole, siluP_eq_siluQ, e0, e1, e2, e3]

end Cert.Join

end
-- ==== Proof.RefValue.lean ====
import proofs.«900792_g7700000000000793_dist_gconv1d_seqshard_i_b4_s1024_c512_v7x_i32_f32_1_alg».proof.Proof.Gen.ReferenceIdeal.Read
import proofs.«900792_g7700000000000793_dist_gconv1d_seqshard_i_b4_s1024_c512_v7x_i32_f32_1_alg».proof.Proof.ConvSpec
import Idealize.ShloMosaic.Lib.IdealHost

/-!
# The one-device reference computes `wholeOut`
-/

noncomputable section

namespace Cert.RefValue

open Idealize.ShloMosaic Idealize.ShloMosaic.ValueIdx
open Cert.ReferenceIdeal Cert.ConvSpec

/-- The joined array at an index: entries `0, 1, 2` along the sequence axis come from the zero piece, entry
    `j ≥ 3` is the sequence at `j - 3`. That is `padded`. -/
private theorem v1_apply (X : (⟨S4x32768x512, .f32⟩ : BufTy).Contents (Elt Ideal)) (j : S4x32771x512.Idx) :
    Read.val_main_v1 (F := Ideal) X j = padded X (j 0) (j 1).val (j 2) := by
  have hj : (j 1).val < 32771 := (j 1).isLt
  unfold Read.val_main_v1 padded
  by_cases h : 3 ≤ (j 1).val
  · have h2 : (j 1).val - 3 < 32768 := by omega
    rw [dif_pos ⟨h, h2⟩]
    refine concatenate_pair_apply_right (t := S4x32771x512) (s₁ := S4x3x512) (s₂ := S4x32768x512) 1
      (Read.val_main_v0 (F := Ideal)) X Gen.concatenates_S4x3x512_S4x32768x512_S4x32771x512_d1 j rfl rfl
      (ix3 (n0 := 4) (n1 := 32768) (n2 := 512) (j 0) ⟨(j 1).val - 3, h2⟩ (j 2)) ?_ ?_
    · intro b hb
      match b, hb with
      | ⟨0, _⟩, _ => rfl
      | ⟨1, _⟩, hb => exact absurd rfl hb
      | ⟨2, _⟩, _ => rfl
    · show (j 1).val - 3 + 3 = (j 1).val
      omega
  · have h1 : (j 1).val < 3 := by omega
    rw [dif_neg (fun hh => h hh.1)]
    rw [concatenate_pair_apply_left (t := S4x32771x512) (s₁ := S4x3x512) (s₂ := S4x32768x512) 1
      (Read.val_main_v0 (F := Ideal)) X Gen.concatenates_S4x3x512_S4x32768x512_S4x32771x512_d1 j rfl
      (ix3 (n0 := 4) (n1 := 3) (n2 := 512) (j 0) ⟨(j 1).val, h1⟩ (j 2))
      (fun b => match b with | ⟨0, _⟩ => rfl | ⟨1, _⟩ => rfl | ⟨2, _⟩ => rfl)]
    rw [Read.val_main_v0_apply, Read.val_main_cst_apply]
    exact Ideal.ofBits_zero_f32

/-- The four windows of the padded array: window `t` at position `n` is padded entry `n + t`. -/
private theorem v3_apply (X : (⟨S4x32768x512, .f32⟩ : BufTy).Contents (Elt Ideal)) (i : S4x32768x512.Idx) :
    Read.val_main_v3 (F := Ideal) X i = padded X (i 0) (i 1).val (i 2) := by
  rw [Read.val_main_v3_apply, v1_apply]
  rfl

private theorem v10_apply (X : (⟨S4x32768x512, .f32⟩ : BufTy).Contents (Elt Ideal)) (i : S4x32768x512.Idx) :
    Read.val_main_v10 (F := Ideal) X i = padded X (i 0) ((i 1).val + 1) (i 2) := by
  rw [Read.val_main_v10_apply, v1_apply]
  show padded X (i 0) (1 + (i 1).val) (i 2) = _
  rw [Nat.add_comm]

private theorem v17_apply (X : (⟨S4x32768x512, .f32⟩ : BufTy).Contents (Elt Ideal)) (i : S4x32768x512.Idx) :
    Read.val_main_v17 (F := Ideal) X i = padded X (i 0) ((i 1).val + 2) (i 2) := by
  rw [Read.val_main_v17_apply, v1_apply]
  show padded X (i 0) (2 + (i 1).val) (i 2) = _
  rw [Nat.add_comm]

private theorem v24_apply (X : (⟨S4x32768x512, .f32⟩ : BufTy).Contents (Elt Ideal)) (i : S4x32768x512.Idx) :
    Read.val_main_v24 (F := Ideal) X i = padded X (i 0) ((i 1).val + 3) (i 2) := by
  rw [Read.val_main_v24_apply, v1_apply]
  show padded X (i 0) (3 + (i 1).val) (i 2) = _
  rw [Nat.add_comm]

/-- A row of the taps, flattened and broadcast over batch and sequence, at an index: the tap on that channel. -/
private theorem v7_apply (K : (⟨S4x512, .f32⟩ : BufTy).Contents (Elt Ideal)) (i : S4x32768x512.Idx) :
    Read.val_main_v7 (F := Ideal) K i = tap K 0 (i 2) := by
  rw [Read.val_main_v7_apply, Read.val_main_v6_apply, Read.val_main_v5_apply, Read.val_main_v4_apply]
  unfold tap
  congr 1
  funext a
  match a with
  | ⟨0, _⟩ => rfl
  | ⟨1, _⟩ => exact Fin.ext (Nat.mod_eq_of_lt (show (i 2).val < 512 from (i 2).isLt))

private theorem v14_apply (K : (⟨S4x512, .f32⟩ : BufTy).Contents (Elt Ideal)) (i : S4x32768x512.Idx) :
    Read.val_main_v14 (F := Ideal) K i = tap K 1 (i 2) := by
  rw [Read.val_main_v14_apply, Read.val_main_v13_apply, Read.val_main_v12_apply, Read.val_main_v11_apply]
  unfold tap
  congr 1
  funext a
  match a with
  | ⟨0, _⟩ => rfl
  | ⟨1, _⟩ => exact Fin.ext (Nat.mod_eq_of_lt (show (i 2).val < 512 from (i 2).isLt))

private theorem v21_apply (K : (⟨S4x512, .f32⟩ : BufTy).Contents (Elt Ideal)) (i : S4x32768x512.Idx) :
    Read.val_main_v21 (F := Ideal) K i = tap K 2 (i 2) := by
  rw [Read.val_main_v21_apply, Read.val_main_v20_apply, Read.val_main_v19_apply, Read.val_main_v18_apply]
  unfold tap
  congr 1
  funext a
  match a with
  | ⟨0, _⟩ => rfl
  | ⟨1, _⟩ => exact Fin.ext (Nat.mod_eq_of_lt (show (i 2).val < 512 from (i 2).isLt))

private theorem v28_apply (K : (⟨S4x512, .f32⟩ : BufTy).Contents (Elt Ideal)) (i : S4x32768x512.Idx) :
    Read.val_main_v28 (F := Ideal) K i = tap K 3 (i 2) := by
  rw [Read.val_main_v28_apply, Read.val_main_v27_apply, Read.val_main_v26_apply, Read.val_main_v25_apply]
  unfold tap
  congr 1
  funext a
  match a with
  | ⟨0, _⟩ => rfl
  | ⟨1, _⟩ => exact Fin.ext (Nat.mod_eq_of_lt (show (i 2).val < 512 from (i 2).isLt))

/-- The reference's result, read operation by operation at an index, is the whole-sequence formula: three zeros
    in front of the sequence, four taps left to right starting from zero, then the quotient form of SiLU. -/
theorem val_eq_wholeOut (X : (⟨S4x32768x512, .f32⟩ : BufTy).Contents (Elt Ideal)) (K : (⟨S4x512, .f32⟩ : BufTy).Contents (Elt Ideal)) :
    Cert.ReferenceIdeal.Read.val_main_v35 (F := Ideal) X K = wholeOut X K := by
  funext i
  -- the quotient, its divisor `1 + exp (-a)`, and the accumulation `a` of the four products from zero
  rw [Read.val_main_v35_apply, Read.val_main_v34_apply, Read.val_main_v33_apply, Read.val_main_cst_1_apply,
    Read.val_main_v32_apply, Read.val_main_v31_apply, Read.val_main_v30_apply, Read.val_main_v29_apply,
    Read.val_main_v23_apply, Read.val_main_v22_apply, Read.val_main_v16_apply, Read.val_main_v15_apply,
    Read.val_main_v9_apply, Read.val_main_v8_apply, Read.val_main_v2_apply, Read.val_main_cst_0_apply,
    v3_apply, v10_apply, v17_apply, v24_apply, v7_apply, v14_apply, v21_apply, v28_apply]
  simp only [Ideal.hostDivf_def, Ideal.addf_def, Ideal.mulf_def, Ideal.hostUnary_exp_def, Ideal.hostNegf_def,
    Ideal.negf_def, Ideal.ofBits_def, Ideal.ofBits_zero_f32, Ideal.ofBits_one_f32, zero_add]
  rfl

end Cert.RefValue

end
-- ==== Proof.Assembly.lean ====
import proofs.«900792_g7700000000000793_dist_gconv1d_seqshard_i_b4_s1024_c512_v7x_i32_f32_1_alg».proof.Proof.KernelIdealRun
import proofs.«900792_g7700000000000793_dist_gconv1d_seqshard_i_b4_s1024_c512_v7x_i32_f32_1_alg».proof.Proof.KernelValue
import proofs.«900792_g7700000000000793_dist_gconv1d_seqshard_i_b4_s1024_c512_v7x_i32_f32_1_alg».proof.Proof.Join
import proofs.«900792_g7700000000000793_dist_gconv1d_seqshard_i_b4_s1024_c512_v7x_i32_f32_1_alg».proof.Proof.RefValue

/-!
# A device's result block is its block of the reference's result

What a device ends with is assembled from its block of `x`, the taps, and the last three positions of the block
before it (zeros on device 0). When the blocks are the blocks of one whole sequence, that is the device's block of
the whole causal convolution with SiLU.
-/

noncomputable section

namespace Cert.Assembly

open Idealize.ShloMosaic Idealize.ShloMosaic.TcCoe
open Cert.KernelIdeal Cert.KernelIdeal.Gen Cert.KernelIdealProof Cert.ConvSpec

variable (m : (ℓ : Loc nD τ sig) → Buf (Elt Ideal) ℓ)

/-- A staged whole-array window holds the array. -/
theorem xstg_eq (c : Dev nD) : xstg (F := Ideal) m c = m ((c : Thread nD τ).loc main_arg0) := by
  unfold xstg; exact Memref.read_access_unit_zero (Elt Ideal) main_arg0 (funext fun a => by fin_cases a <;> rfl) _ _
theorem kstg_eq (c : Dev nD) : kstg (F := Ideal) m c = m ((c : Thread nD τ).loc main_arg1) := by
  unfold kstg; exact Memref.read_access_unit_zero (Elt Ideal) main_arg1 (funext fun a => by fin_cases a <;> rfl) _ _

/-- Each device's result block, when the devices' blocks of `x` are the blocks of `X` and every device holds the taps `K`. -/
theorem out_eq_block (X : SW.Idx → EReal) (K : SK.Idx → EReal)
    (hx : ∀ c : Dev nD, m ((c : Thread nD τ).loc main_arg0) = Layout.block SB SW 1 32 c X)
    (hk : ∀ c : Dev nD, m ((c : Thread nD τ).loc main_arg1) = K) (c : Dev nD) :
    outAt (F := Ideal) m c = Layout.block SB SW 1 32 c (wholeOut X K) := by
  have hhalo : haloC (F := Ideal) m c = haloSpec (fun d => Layout.block SB SW 1 32 d X) c := by
    unfold haloC haloSpec landed
    by_cases h0 : c.val = 0
    · rw [if_pos h0, if_pos h0]; exact Cert.KernelValue.zeros_eq
    · rw [if_neg h0, if_neg h0, Cert.KernelValue.sendC_eq, xstg_eq, hx]; rfl
  unfold outAt
  rw [hhalo, Cert.KernelValue.outHi_eq, Cert.KernelValue.outLo_eq, xstg_eq, kstg_eq, hx, hk]
  exact Cert.Join.block_join X K c _

end Cert.Assembly

end
-- ==== Proof.lean ====
/- The proof of `Cert.Claim`.

   Thirty-two devices each hold 1024 consecutive positions of a sequence and compute a causal four-tap convolution
   followed by SiLU; the first three positions of a block need the last three positions of the block before it, which
   the devices pass round a ring. The run of the whole mesh (every device's result named, its arguments unchanged) is
   proved once, generic in the float instance: each kernel frame is that run with the result dropped, and the
   equivalence with the one-device reference is its instance over the extended reals, where a device's result is its
   block of the whole result: positions 3 … 1023 of a block read the block only, positions 0 … 2 also read the last
   three positions of the previous block (zeros in front of position 0), and SiLU as a product with the logistic
   function is SiLU as a quotient because 1 + e⁻ᵃ is never zero. -/
import proofs.«900792_g7700000000000793_dist_gconv1d_seqshard_i_b4_s1024_c512_v7x_i32_f32_1_alg».proof.Defs
import proofs.«900792_g7700000000000793_dist_gconv1d_seqshard_i_b4_s1024_c512_v7x_i32_f32_1_alg».proof.Proof.Gen.Kernel
import proofs.«900792_g7700000000000793_dist_gconv1d_seqshard_i_b4_s1024_c512_v7x_i32_f32_1_alg».proof.Proof.Gen.Kernel.Skeleton
import proofs.«900792_g7700000000000793_dist_gconv1d_seqshard_i_b4_s1024_c512_v7x_i32_f32_1_alg».proof.Proof.Gen.Kernel.Launch
import proofs.«900792_g7700000000000793_dist_gconv1d_seqshard_i_b4_s1024_c512_v7x_i32_f32_1_alg».proof.Proof.Gen.Kernel.Points
import proofs.«900792_g7700000000000793_dist_gconv1d_seqshard_i_b4_s1024_c512_v7x_i32_f32_1_alg».proof.Proof.Gen.Kernel.Frame
import proofs.«900792_g7700000000000793_dist_gconv1d_seqshard_i_b4_s1024_c512_v7x_i32_f32_1_alg».proof.Proof.Gen.KernelIdeal
import proofs.«900792_g7700000000000793_dist_gconv1d_seqshard_i_b4_s1024_c512_v7x_i32_f32_1_alg».proof.Proof.Gen.KernelIdeal.Skeleton
import proofs.«900792_g7700000000000793_dist_gconv1d_seqshard_i_b4_s1024_c512_v7x_i32_f32_1_alg».proof.Proof.Gen.KernelIdeal.Launch
import proofs.«900792_g7700000000000793_dist_gconv1d_seqshard_i_b4_s1024_c512_v7x_i32_f32_1_alg».proof.Proof.Gen.KernelIdeal.Points
import proofs.«900792_g7700000000000793_dist_gconv1d_seqshard_i_b4_s1024_c512_v7x_i32_f32_1_alg».proof.Proof.Gen.KernelIdeal.Frame
import proofs.«900792_g7700000000000793_dist_gconv1d_seqshard_i_b4_s1024_c512_v7x_i32_f32_1_alg».proof.Proof.Gen.ReferenceIdeal
import proofs.«900792_g7700000000000793_dist_gconv1d_seqshard_i_b4_s1024_c512_v7x_i32_f32_1_alg».proof.Proof.Gen.ReferenceIdeal.Run
import proofs.«900792_g7700000000000793_dist_gconv1d_seqshard_i_b4_s1024_c512_v7x_i32_f32_1_alg».proof.Proof.Gen.ReferenceIdeal.Read
import proofs.«900792_g7700000000000793_dist_gconv1d_seqshard_i_b4_s1024_c512_v7x_i32_f32_1_alg».proof.Proof.Gen.Pre_finite_inputs_Kernel
import proofs.«900792_g7700000000000793_dist_gconv1d_seqshard_i_b4_s1024_c512_v7x_i32_f32_1_alg».proof.Proof.Gen.Pre_finite_inputs_ReferenceIdeal
import proofs.«900792_g7700000000000793_dist_gconv1d_seqshard_i_b4_s1024_c512_v7x_i32_f32_1_alg».proof.Proof.KernelRun
import proofs.«900792_g7700000000000793_dist_gconv1d_seqshard_i_b4_s1024_c512_v7x_i32_f32_1_alg».proof.Proof.KernelIdealRun
import proofs.«900792_g7700000000000793_dist_gconv1d_seqshard_i_b4_s1024_c512_v7x_i32_f32_1_alg».proof.Proof.Assembly
import Idealize.ShloMosaic.Adequacy
import Idealize.ShloMosaic.Init

noncomputable section

namespace Cert.Proof

open Idealize.ShloMosaic Idealize.SL.Sem

/-- A device's result block is its block of the reference's result, when the devices' blocks of `x` are the blocks
    of the reference's `x` and every device holds the reference's taps. -/
theorem out_block (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.block ⟨3, ![4, 1024, 512]⟩ ⟨3, ![4, 32768, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1))
    (c : Dev Cert.KernelIdeal.nD) :
    Cert.KernelIdealProof.outAt (F := Ideal) m c
      = Layout.block ⟨3, ![4, 1024, 512]⟩ ⟨3, ![4, 32768, 512]⟩ 1 32 c
          (Cert.ReferenceIdeal.Read.val_main_v35 (F := Ideal)
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))) := by
  rw [Cert.RefValue.val_eq_wholeOut]
  exact Cert.Assembly.out_eq_block m _ _ (fun c => (hagree c).1) (fun c => (hagree c).2) c

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  -- the word-level kernel runs and leaves its arguments
  fun m ρ _ => (θ_run (Cert.Kernel.defs (F := Bits)) _ _).mono (fun _ h c => ⟨(h c).2.1, (h c).2.2⟩) (Cert.KernelProof.run_vals (F := Bits) m ρ),
  -- so does the idealized kernel
  fun m ρ _ => (θ_run (Cert.KernelIdeal.defs (F := Ideal)) _ _).mono (fun _ h c => ⟨(h c).2.1, (h c).2.2⟩) (Cert.KernelIdealProof.run_vals (F := Ideal) m ρ),
  -- and the reference
  fun m ρ _ => (θ_run (Cert.ReferenceIdeal.defs (F := Ideal)) _ _).mono (fun _ h c => (h c).2) (Cert.ReferenceIdeal.Value.run (F := Ideal) m ρ),
  -- no operation was rewritten by the idealization
  trivial,
  -- each device ends with its block of the reference's result
  fun m ρ m' ρ' _ hagree =>
    ⟨Cert.ReferenceIdeal.Read.val_main_v35 (F := Ideal)
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run (Cert.KernelIdeal.defs (F := Ideal)) _ _).mono (fun _ h c => ⟨(h c).1.trans (out_block m m' hagree c), (h c).2.1, (h c).2.2⟩)
        (Cert.KernelIdealProof.run_vals (F := Ideal) m ρ),
      (θ_run (Cert.ReferenceIdeal.defs (F := Ideal)) _ _).mono
        (fun _ h => ⟨((h 0).1).trans (Cert.ReferenceIdeal.Read.val_main_v35_eq m' 0), (h 0).2.1, (h 0).2.2⟩)
        (Cert.ReferenceIdeal.Value.run (F := Ideal) m' ρ')⟩⟩

end Cert.Proof

end
